-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S10x128 : Shape := ⟨2, ![10, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x128 .f32) (main_arg1 : IVec S1000000 32) (main_arg2 : FVec F S10x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S10x128 .f32 := Host.absf main_arg2
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg1 main_v9
  let main_c_3 : IVec S_ 32 := constantI S_ 32 10#32
  let main_v11 : IVec S1000000 32 := broadcastInDim S1000000 ![] bcast_S_S1000000 main_c_3
  let main_v12 : IVec S1000000 1 := cmpi .slt main_arg1 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_v15 : IVec S_ 1 := andi main_v8 main_v14
  main_v15
-- ==== Kernel.lean ====
abbrev S1000000x128 : Shape := ⟨2, ![1000000, 128]⟩
abbrev S1000000 : Shape := ⟨1, ![1000000]⟩
abbrev S10x128 : Shape := ⟨2, ![10, 128]⟩
abbrev S1000000x1 : Shape := ⟨2, ![1000000, 1]⟩
abbrev S1x1 : Shape := ⟨2, ![1, 1]⟩
abbrev S4000x128 : Shape := ⟨2, ![4000, 128]⟩
abbrev S4000x1 : Shape := ⟨2, ![4000, 1]⟩
abbrev S4000x10 : Shape := ⟨2, ![4000, 10]⟩
abbrev S4000 : Shape := ⟨1, ![4000]⟩
abbrev S1 : Shape := ⟨1, ![1]⟩
abbrev S10 : Shape := ⟨1, ![10]⟩
abbrev S10x1 : Shape := ⟨2, ![10, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S10x128, .f32⟩
  | .hbm, ⟨3, _⟩ => ⟨S1000000x1, .i32⟩
  | .hbm, ⟨4, _⟩ => ⟨S10x128, .f32⟩
  | .hbm, ⟨5, _⟩ => ⟨S1x1, .f32⟩
  | .hbm, ⟨6, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S10x128, .f32⟩
  | .local _ .vmem, ⟨5, _⟩ => ⟨S10x128, .f32⟩
  | .local _ .vmem, ⟨6, _⟩ => ⟨S1x1, .f32⟩
  | .local _ .vmem, ⟨7, _⟩ => ⟨S10x128, .f32⟩
  | .local _ .vmem, ⟨8, _⟩ => ⟨S1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v52 : BitVec 1 := Scalar.cmpi .eq arg0 c249_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1000000_S1000000x1 : S1000000.ShapeCasts S1000000x1
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bitsLt_bf16_f32 : FTy.bits .bf16 < FTy.bits .f32
  iota_S4000x10_d1_w32 : S4000x10.Iotas .tc 32 [1]
  broadcasts_S4000x1_S4000x10 : S4000x1.Broadcasts S4000x10
  natLt_1_32 : 1 < 32
  reduces_S4000x10_S4000 : S4000x10.Reduces [1] S4000
  shapeCasts_S4000_S4000x1 : S4000.ShapeCasts S4000x1
  reduces_S4000x1_S1 : S4000x1.Reduces [0] S1
  shapeCasts_S1_S1x1 : S1.ShapeCasts S1x1
  reduces_S10x128_S10 : S10x128.Reduces [1] S10
  shapeCasts_S10_S10x1 : S10.ShapeCasts S10x1
  reduces_S10x1_S1 : S10x1.Reduces [0] S1
  shapeCasts_S1x1_S_ : S1x1.ShapeCasts S_
  dot_S4000x128_S10x128_S4000x10_1_1_0_0_n_n_wf : DotDims.WF S4000x128 S10x128 S4000x10 [1] [1] [0] [0] [] []
  dot_S4000x10_S4000x128_S10x128_0_0_1_1_n_n_wf : DotDims.WF S4000x10 S4000x128 S10x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x128.size a ≤ S10x128.size a
  hwx0_3 : ∀ i : grid0.Coords, EltTy.bits .f32 = 32 ∨ (Rect.block (s := S10x128) S10x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S4000x128_S10x128_S4000x10_1_1_0_0_n_n : DotDims S4000x128 S10x128 S4000x10 where
  lhsContracting := [1]
  rhsContracting := [1]
  lhsNonContracting := [0]
  rhsNonContracting := [0]
  lhsBatch := []
  rhsBatch := []
  wf := dot_S4000x128_S10x128_S4000x10_1_1_0_0_n_n_wf
def dot_S4000x10_S4000x128_S10x128_0_0_1_1_n_n : DotDims S4000x10 S4000x128 S10x128 where
  lhsContracting := [0]
  rhsContracting := [0]
  lhsNonContracting := [1]
  rhsNonContracting := [1]
  lhsBatch := []
  rhsBatch := []
  wf := dot_S4000x10_S4000x128_S10x128_0_0_1_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000x128 : Shape := ⟨2, ![1000000, 128]⟩
abbrev S1000000 : Shape := ⟨1, ![1000000]⟩
abbrev S10x128 : Shape := ⟨2, ![10, 128]⟩
abbrev S128x10 : Shape := ⟨2, ![128, 10]⟩
abbrev S1000000x10 : Shape := ⟨2, ![1000000, 10]⟩
abbrev S1000000x1 : Shape := ⟨2, ![1000000, 1]⟩
abbrev S_ : Shape := ⟨0, ![]⟩
abbrev S1000000x1x1 : Shape := ⟨3, ![1000000, 1, 1]⟩
abbrev S1 : Shape := ⟨1, ![1]⟩
abbrev S1x1x1 : Shape := ⟨3, ![1, 1, 1]⟩
abbrev S1x10 : Shape := ⟨2, ![1, 10]⟩
abbrev S10x1000000 : Shape := ⟨2, ![10, 1000000]⟩

abbrev nBuf : Space → Nat
  | .hbm => 82
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S10x128, .f32⟩
  | .hbm, ⟨3, _⟩ => ⟨S128x10, .f32⟩
  | .hbm, ⟨4, _⟩ => ⟨S1000000x10, .f32⟩
  | .hbm, ⟨5, _⟩ => ⟨S1000000x1, .i32⟩
  | .hbm, ⟨6, _⟩ => ⟨S_, .i32⟩
  | .hbm, ⟨7, _⟩ => ⟨S1000000x1, .i32⟩
  | .hbm, ⟨8, _⟩ => ⟨S1000000x1, .i1⟩
  | .hbm, ⟨9, _⟩ => ⟨S_, .i32⟩
  | .hbm, ⟨10, _⟩ => ⟨S1000000x1, .i32⟩
  | .hbm, ⟨11, _⟩ => ⟨S1000000x1, .i32⟩
  | .hbm, ⟨12, _⟩ => ⟨S1000000x1, .i32⟩
  | .hbm, ⟨13, _⟩ => ⟨S1000000x1x1, .i32⟩
  | .hbm, ⟨14, _⟩ => ⟨S1, .i32⟩
  | .hbm, ⟨15, _⟩ => ⟨S_, .i32⟩
  | .hbm, ⟨16, _⟩ => ⟨S1000000x1x1, .i32⟩
  | .hbm, ⟨17, _⟩ => ⟨S1000000x1x1, .i1⟩
  | .hbm, ⟨18, _⟩ => ⟨S1x1x1, .i32⟩
  | .hbm, ⟨19, _⟩ => ⟨S1000000x1x1, .i32⟩
  | .hbm, ⟨20, _⟩ => ⟨S1000000x1x1, .i1⟩
  | .hbm, ⟨21, _⟩ => ⟨S1000000x1x1, .i1⟩
  | .hbm, ⟨22, _⟩ => ⟨S_, .i1⟩
  | .hbm, ⟨23, _⟩ => ⟨S1000000x1, .i1⟩
  | .hbm, ⟨24, _⟩ => ⟨S1000000x1, .f32⟩
  | .hbm, ⟨25, _⟩ => ⟨S_, .f32⟩
  | .hbm, ⟨26, _⟩ => ⟨S1000000x1, .f32⟩
  | .hbm, ⟨27, _⟩ => ⟨S1000000x1, .f32⟩
  | .hbm, ⟨28, _⟩ => ⟨S1000000x10, .f32⟩
  | .hbm, ⟨29, _⟩ => ⟨S1000000x10, .f32⟩
  | .hbm, ⟨30, _⟩ => ⟨S_, .f32⟩
  | .hbm, ⟨31, _⟩ => ⟨S1000000x10, .f32⟩
  | .hbm, ⟨32, _⟩ => ⟨S1000000x10, .f32⟩
  | .hbm, ⟨33, _⟩ => ⟨S1000000x1, .i32⟩
  | .hbm, ⟨34, _⟩ => ⟨S1x10, .i32⟩
  | .hbm, ⟨35, _⟩ => ⟨S1000000x10, .i32⟩
  | .hbm, ⟨36, _⟩ => ⟨S1000000x10, .i32⟩
  | .hbm, ⟨37, _⟩ => ⟨S1000000x10, .i1⟩
  | .hbm, ⟨38, _⟩ => ⟨S1000000x10, .f32⟩
  | .hbm, ⟨39, _⟩ => ⟨S_, .f32⟩
  | .hbm, ⟨40, _⟩ => ⟨S1000000x10, .f32⟩
  | .hbm, ⟨41, _⟩ => ⟨S1000000x10, .i1⟩
  | .hbm, ⟨42, _⟩ => ⟨S_, .f32⟩
  | .hbm, ⟨43, _⟩ => ⟨S1000000x10, .f32⟩
  | .hbm, ⟨44, _⟩ => ⟨S1000000x10, .i1⟩
  | .hbm, ⟨45, _⟩ => ⟨S1000000x10, .i1⟩
  | .hbm, ⟨46, _⟩ => ⟨S_, .f32⟩
  | .hbm, ⟨47, _⟩ => ⟨S_, .f32⟩
  | .hbm, ⟨48, _⟩ => ⟨S1000000x10, .f32⟩
  | .hbm, ⟨49, _⟩ => ⟨S1000000x10, .f32⟩
  | .hbm, ⟨50, _⟩ => ⟨S1000000x10, .f32⟩
  | .hbm, ⟨51, _⟩ => ⟨S1000000x10, .f32⟩
  | .hbm, ⟨52, _⟩ => ⟨S1000000x10, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S10x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1000000, .f32⟩
  | .hbm, ⟨65, _⟩ => ⟨S10x1000000, .f32⟩
  | .hbm, ⟨66, _⟩ => ⟨S10x128, .f32⟩
  | .hbm, ⟨67, _⟩ => ⟨S1000000x1, .f32⟩
  | .hbm, ⟨68, _⟩ => ⟨S1000000x128, .f32⟩
  | .hbm, ⟨69, _⟩ => ⟨S1000000x128, .f32⟩
  | .hbm, ⟨70, _⟩ => ⟨S_, .f32⟩
  | .hbm, ⟨71, _⟩ => ⟨S10x128, .f32⟩
  | .hbm, ⟨72, _⟩ => ⟨S1000000x1, .i32⟩
  | .hbm, ⟨73, _⟩ => ⟨S10x128, .f32⟩
  | .hbm, ⟨74, _⟩ => ⟨S10x128, .f32⟩
  | .hbm, ⟨75, _⟩ => ⟨S_, .f32⟩
  | .hbm, ⟨76, _⟩ => ⟨S10x128, .f32⟩
  | .hbm, ⟨77, _⟩ => ⟨S10x128, .f32⟩
  | .hbm, ⟨78, _⟩ => ⟨S_, .f32⟩
  | .hbm, ⟨79, _⟩ => ⟨S10x128, .f32⟩
  | .hbm, ⟨80, _⟩ => ⟨S10x128, .f32⟩
  | .hbm, ⟨81, _⟩ => ⟨S10x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_4 : Ref sig .tc := ⟨.hbm, 53, rfl⟩
abbrev main_v17 : Ref sig .tc := ⟨.hbm, 54, rfl⟩
abbrev main_cst_5 : Ref sig .tc := ⟨.hbm, 55, rfl⟩
abbrev main_v18 : Ref sig .tc := ⟨.hbm, 56, rfl⟩
abbrev main_v19 : Ref sig .tc := ⟨.hbm, 57, rfl⟩
abbrev main_cst_6 : Ref sig .tc := ⟨.hbm, 58, rfl⟩
abbrev main_v20 : Ref sig .tc := ⟨.hbm, 59, rfl⟩
abbrev main_cst_7 : Ref sig .tc := ⟨.hbm, 60, rfl⟩
abbrev main_v21 : Ref sig .tc := ⟨.hbm, 61, rfl⟩
abbrev main_v22 : Ref sig .tc := ⟨.hbm, 62, rfl⟩
abbrev main_cst_8 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_9 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_10 : Ref sig .tc := ⟨.hbm, 75, rfl⟩
abbrev main_v33 : Ref sig .tc := ⟨.hbm, 76, rfl⟩
abbrev main_v34 : Ref sig .tc := ⟨.hbm, 77, rfl⟩
abbrev main_cst_11 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩

abbrev nD : Nat := 1
abbrev τ : Topo := Topo.v7x

variable {F : FTy → Type} [FloatOps F]

class Facts₀ : Prop where
  transposes_S10x128_S128x10_1_0 : S10x128.Transposes [1, 0] S128x10
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  shapeCasts_S1000000x1_S1000000x1x1 : S1000000x1.ShapeCasts S1000000x1x1
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  h_S_ : 0 < S_.numel
  bcast_S1000000x1_S1000000x10_0_1 : S1000000x1.BroadcastsInDim S1000000x10 (![0, 1] : Fin 2 → Fin S1000000x10.rank)
  bcast_S_S1000000x10 : S_.BroadcastsInDim S1000000x10 (![] : Fin 0 → Fin S1000000x10.rank)
  bcast_S1x10_S1000000x10_0_1 : S1x10.BroadcastsInDim S1000000x10 (![0, 1] : Fin 2 → Fin S1000000x10.rank)
  reducesTo_S1000000x10_S_d0_1 : S1000000x10.ReducesTo [0, 1] S_
  reducesTo_S10x128_S_d0_1 : S10x128.ReducesTo [0, 1] S_
  reducesTo_S1000000x10_S1000000_d1 : S1000000x10.ReducesTo [1] S1000000
  transposes_S1000000x10_S10x1000000_1_0 : S1000000x10.Transposes [1, 0] S10x1000000
  bcast_S1000000x1_S1000000x128_0_1 : S1000000x1.BroadcastsInDim S1000000x128 (![0, 1] : Fin 2 → Fin S1000000x128.rank)
  bcast_S_S10x128 : S_.BroadcastsInDim S10x128 (![] : Fin 0 → Fin S10x128.rank)
  dot_S1000000x128_S128x10_S1000000x10_1_0_0_1_n_n_wf : DotDims.WF S1000000x128 S128x10 S1000000x10 [1] [0] [0] [1] [] []
  gather_S1000000x10_S1000000x1x1_S1000000x1_n_1_0_0_1_2_11_wf : GatherDims.WF S1000000x10 S1000000x1x1 S1000000x1 [] [1] [0] [1] [0] 2 ![1, 1]
  dot_S10x1000000_S1000000x128_S10x128_1_0_0_1_n_n_wf : DotDims.WF S10x1000000 S1000000x128 S10x128 [1] [0] [0] [1] [] []
  scatter_S10x128_S1000000x1_S1000000x128_1_0_0_1_wf : ScatterDims.WF S10x128 S1000000x1 S1000000x128 [1] [0] [0] 1

variable [Facts₀]

def dot_S1000000x128_S128x10_S1000000x10_1_0_0_1_n_n : DotDims S1000000x128 S128x10 S1000000x10 where
  lhsContracting := [1]
  rhsContracting := [0]
  lhsNonContracting := [0]
  rhsNonContracting := [1]
  lhsBatch := []
  rhsBatch := []
  wf := dot_S1000000x128_S128x10_S1000000x10_1_0_0_1_n_n_wf
def gather_S1000000x10_S1000000x1x1_S1000000x1_n_1_0_0_1_2_11 : GatherDims S1000000x10 S1000000x1x1 S1000000x1 where
  offsetDims := []
  collapsedSliceDims := [1]
  operandBatchingDims := [0]
  startIndicesBatchingDims := [0]
  startIndexMap := [1]
  indexVectorDim := 2
  sliceSizes := ![1, 1]
  wf := gather_S1000000x10_S1000000x1x1_S1000000x1_n_1_0_0_1_2_11_wf
def dot_S10x1000000_S1000000x128_S10x128_1_0_0_1_n_n : DotDims S10x1000000 S1000000x128 S10x128 where
  lhsContracting := [1]
  rhsContracting := [0]
  lhsNonContracting := [0]
  rhsNonContracting := [1]
  lhsBatch := []
  rhsBatch := []
  wf := dot_S10x1000000_S1000000x128_S10x128_1_0_0_1_n_n_wf
def scatter_S10x128_S1000000x1_S1000000x128_1_0_0_1 : ScatterDims S10x128 S1000000x1 S1000000x128 where
  updateWindowDims := [1]
  insertedWindowDims := [0]
  scatterDimsToOperandDims := [0]
  indexVectorDim := 1
  wf := scatter_S10x128_S1000000x1_S1000000x128_1_0_0_1_wf

class Facts : Prop extends Facts₀ where

variable [Facts]
-- ==== Proof.RefStages.lean ====
/-
  The reference program's run, read window by window.

  The reference is a straight line of 79 host operations. Its two results are functions of the three arguments that the
  stage-by-stage reading names `val_main_v37` (the gradient) and `val_main_v22` (the loss). Here the line is cut in
  five windows — the scores and the label index reshaped for the gather (11 operations); the score of each row's own
  class, gathered and guarded (14); the margins (5); the mask of violating classes (19); the two results from the
  margins, the mask and the arguments (30) — and each window is evaluated from ARBITRARY buffer contents `W`: what it
  leaves in its last buffer is the stage function of the arguments whenever `W` holds the earlier stages in the buffers
  the window reads, and it leaves the buffers it does not write as they were. Chaining the windows from the launch
  contents gives the run: every weakly fair execution terminates with the two result buffers at the two stage
  functions of the arguments, the arguments unchanged.
-/
import proofs.«407127_j42941083025647_1_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)

variable {F : FTy → Type} [FloatOps F]

/-- The contents after two lines run end to end are those after the second, from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The typed references of an inlined function

An operation of a function the compiler inlined reads and writes its buffers through a transport along the buffer's
type, the identity in effect. A value written and read back through the same reference loses both transports at once;
the three transports that stand alone at a window's boundary are removed at their literal buffers. -/

/-- Contents sent to a buffer's own type and back are the contents. -/
theorem ofBuf_toBuf {T : BufTy} (x : TRef sig T) (v : T.Contents (Elt F)) : x.ofBuf (x.toBuf v) = v := by
  obtain ⟨r, h, h2, h3⟩ := x
  subst h
  rfl

/-- At a literal buffer the transport along its type is the identity: the three that stand unpaired at the second
    window's boundary. -/
theorem toBuf_v3 (v : (⟨S1000000x1, .f32⟩ : BufTy).Contents (Elt F)) :
    (TRef.of (T := ⟨S1000000x1, .f32⟩) main_v3).toBuf v = v := rfl
theorem ofBuf_v1 (v : main_v1.ty.Contents (Elt F)) :
    (TRef.of (T := ⟨S1000000x10, .f32⟩) main_v1).ofBuf v = v := rfl
theorem ofBuf_c5 (v : main_call0_v5.ty.Contents (Elt F)) :
    (TRef.of (T := ⟨S1000000x1x1, .i32⟩) main_call0_v5).ofBuf v = v := rfl

/-- The line is its five windows end to end. -/
theorem ops_cut : (ops (F := F)) = (ops (F := F)).take 11 ++ (((ops (F := F)).drop 11).take 14 ++ ((((ops (F := F)).drop 11).drop 14).take 5 ++ (((((ops (F := F)).drop 11).drop 14).drop 5).take 19 ++ ((((ops (F := F)).drop 11).drop 14).drop 5).drop 19))) := by
  rw [List.take_append_drop, List.take_append_drop, List.take_append_drop, List.take_append_drop]

theorem after_ops (V : Valuation τ sig (Elt F)) :
    after (ops (F := F)) V
      = after (((((ops (F := F)).drop 11).drop 14).drop 5).drop 19) (after (((((ops (F := F)).drop 11).drop 14).drop 5).take 19) (after ((((ops (F := F)).drop 11).drop 14).take 5) (after (((ops (F := F)).drop 11).take 14) (after ((ops (F := F)).take 11) V)))) := by
  conv_lhs => rw [ops_cut]
  rw [after_append, after_append, after_append, after_append]

/-! ## Window 1: the scores and the reshaped label index -/

set_option maxRecDepth 65536 in
set_option maxHeartbeats 4000000 in
theorem wA_v1 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (ha0 : W (Proc.devRef .tc main_arg0) = x0) (ha2 : W (Proc.devRef .tc main_arg2) = x2) :
    after ((ops (F := F)).take 11) W (Proc.devRef .tc main_v1) = Read.val_main_v1 (F := F) x0 x2 := by
  simp only [ops, List.take, List.drop]
  after_results_simp
  simp only [ha0, ha2]
  rfl

set_option maxRecDepth 65536 in
set_option maxHeartbeats 4000000 in
theorem wA_v5 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (ha1 : W (Proc.devRef .tc main_arg1) = x1) :
    after ((ops (F := F)).take 11) W (Proc.devRef .tc main_call0_v5) = Read.val_main_call0_v5 (F := F) x1 := by
  simp only [ops, List.take, List.drop]
  after_results_simp
  simp only [ha1]
  rfl

set_option maxRecDepth 65536 in
set_option maxHeartbeats 4000000 in
theorem wA_a0 (W : Valuation τ sig (Elt F)) :
    after ((ops (F := F)).take 11) W (Proc.devRef .tc main_arg0) = W (Proc.devRef .tc main_arg0) := by
  simp only [ops, List.take, List.drop]
  after_results_simp <;> rfl

set_option maxRecDepth 65536 in
set_option maxHeartbeats 4000000 in
theorem wA_a1 (W : Valuation τ sig (Elt F)) :
    after ((ops (F := F)).take 11) W (Proc.devRef .tc main_arg1) = W (Proc.devRef .tc main_arg1) := by
  simp only [ops, List.take, List.drop]
  after_results_simp <;> rfl

set_option maxRecDepth 65536 in
set_option maxHeartbeats 4000000 in
theorem wA_a2 (W : Valuation τ sig (Elt F)) :
    after ((ops (F := F)).take 11) W (Proc.devRef .tc main_arg2) = W (Proc.devRef .tc main_arg2) := by
  simp only [ops, List.take, List.drop]
  after_results_simp <;> rfl

/-! ## Window 2: the score of the row's own class -/

set_option maxRecDepth 65536 in
set_option maxHeartbeats 4000000 in
theorem wB_v3 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (h1 : W (Proc.devRef .tc main_v1) = Read.val_main_v1 (F := F) x0 x2) (h5 : W (Proc.devRef .tc main_call0_v5) = Read.val_main_call0_v5 (F := F) x1) :
    after (((ops (F := F)).drop 11).take 14) W (Proc.devRef .tc main_v3) = Read.val_main_v3 (F := F) x0 x1 x2 := by
  simp only [ops, List.take, List.drop]
  after_results_simp
  simp only [h1, h5]
  simp only [ofBuf_toBuf, toBuf_v3, ofBuf_v1, ofBuf_c5]
  rfl

set_option maxRecDepth 65536 in
set_option maxHeartbeats 4000000 in
theorem wB_v1 (W : Valuation τ sig (Elt F)) :
    after (((ops (F := F)).drop 11).take 14) W (Proc.devRef .tc main_v1) = W (Proc.devRef .tc main_v1) := by
  simp only [ops, List.take, List.drop]
  after_results_simp <;> rfl

set_option maxRecDepth 65536 in
set_option maxHeartbeats 4000000 in
theorem wB_a0 (W : Valuation τ sig (Elt F)) :
    after (((ops (F := F)).drop 11).take 14) W (Proc.devRef .tc main_arg0) = W (Proc.devRef .tc main_arg0) := by
  simp only [ops, List.take, List.drop]
  after_results_simp <;> rfl

set_option maxRecDepth 65536 in
set_option maxHeartbeats 4000000 in
theorem wB_a1 (W : Valuation τ sig (Elt F)) :
    after (((ops (F := F)).drop 11).take 14) W (Proc.devRef .tc main_arg1) = W (Proc.devRef .tc main_arg1) := by
  simp only [ops, List.take, List.drop]
  after_results_simp <;> rfl

set_option maxRecDepth 65536 in
set_option maxHeartbeats 4000000 in
theorem wB_a2 (W : Valuation τ sig (Elt F)) :
    after (((ops (F := F)).drop 11).take 14) W (Proc.devRef .tc main_arg2) = W (Proc.devRef .tc main_arg2) := by
  simp only [ops, List.take, List.drop]
  after_results_simp <;> rfl

/-! ## Window 3: the margins -/

set_option maxRecDepth 65536 in
set_option maxHeartbeats 4000000 in
theorem wC_v7 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (h1 : W (Proc.devRef .tc main_v1) = Read.val_main_v1 (F := F) x0 x2) (h3 : W (Proc.devRef .tc main_v3) = Read.val_main_v3 (F := F) x0 x1 x2) :
    after ((((ops (F := F)).drop 11).drop 14).take 5) W (Proc.devRef .tc main_v7) = Read.val_main_v7 (F := F) x0 x1 x2 := by
  simp only [ops, List.take, List.drop]
  after_results_simp
  simp only [h1, h3]
  rfl

set_option maxRecDepth 65536 in
set_option maxHeartbeats 4000000 in
theorem wC_a0 (W : Valuation τ sig (Elt F)) :
    after ((((ops (F := F)).drop 11).drop 14).take 5) W (Proc.devRef .tc main_arg0) = W (Proc.devRef .tc main_arg0) := by
  simp only [ops, List.take, List.drop]
  after_results_simp <;> rfl

set_option maxRecDepth 65536 in
set_option maxHeartbeats 4000000 in
theorem wC_a1 (W : Valuation τ sig (Elt F)) :
    after ((((ops (F := F)).drop 11).drop 14).take 5) W (Proc.devRef .tc main_arg1) = W (Proc.devRef .tc main_arg1) := by
  simp only [ops, List.take, List.drop]
  after_results_simp <;> rfl

set_option maxRecDepth 65536 in
set_option maxHeartbeats 4000000 in
theorem wC_a2 (W : Valuation τ sig (Elt F)) :
    after ((((ops (F := F)).drop 11).drop 14).take 5) W (Proc.devRef .tc main_arg2) = W (Proc.devRef .tc main_arg2) := by
  simp only [ops, List.take, List.drop]
  after_results_simp <;> rfl

/-! ## Window 4: the mask of violating classes -/

set_option maxRecDepth 65536 in
set_option maxHeartbeats 4000000 in
theorem wD_v15 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (h7 : W (Proc.devRef .tc main_v7) = Read.val_main_v7 (F := F) x0 x1 x2) (ha1 : W (Proc.devRef .tc main_arg1) = x1) :
    after (((((ops (F := F)).drop 11).drop 14).drop 5).take 19) W (Proc.devRef .tc main_v15) = Read.val_main_v15 (F := F) x0 x1 x2 := by
  simp only [ops, List.take, List.drop]
  after_results_simp
  simp only [h7, ha1]
  rfl

set_option maxRecDepth 65536 in
set_option maxHeartbeats 4000000 in
theorem wD_v7 (W : Valuation τ sig (Elt F)) :
    after (((((ops (F := F)).drop 11).drop 14).drop 5).take 19) W (Proc.devRef .tc main_v7) = W (Proc.devRef .tc main_v7) := by
  simp only [ops, List.take, List.drop]
  after_results_simp <;> rfl

set_option maxRecDepth 65536 in
set_option maxHeartbeats 4000000 in
theorem wD_a0 (W : Valuation τ sig (Elt F)) :
    after (((((ops (F := F)).drop 11).drop 14).drop 5).take 19) W (Proc.devRef .tc main_arg0) = W (Proc.devRef .tc main_arg0) := by
  simp only [ops, List.take, List.drop]
  after_results_simp <;> rfl

set_option maxRecDepth 65536 in
set_option maxHeartbeats 4000000 in
theorem wD_a1 (W : Valuation τ sig (Elt F)) :
    after (((((ops (F := F)).drop 11).drop 14).drop 5).take 19) W (Proc.devRef .tc main_arg1) = W (Proc.devRef .tc main_arg1) := by
  simp only [ops, List.take, List.drop]
  after_results_simp <;> rfl

set_option maxRecDepth 65536 in
set_option maxHeartbeats 4000000 in
theorem wD_a2 (W : Valuation τ sig (Elt F)) :
    after (((((ops (F := F)).drop 11).drop 14).drop 5).take 19) W (Proc.devRef .tc main_arg2) = W (Proc.devRef .tc main_arg2) := by
  simp only [ops, List.take, List.drop]
  after_results_simp <;> rfl

/-! ## Window 5: the two results -/

set_option maxRecDepth 65536 in
set_option maxHeartbeats 4000000 in
theorem wE_v37 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (h15 : W (Proc.devRef .tc main_v15) = Read.val_main_v15 (F := F) x0 x1 x2) (ha0 : W (Proc.devRef .tc main_arg0) = x0) (ha1 : W (Proc.devRef .tc main_arg1) = x1) (ha2 : W (Proc.devRef .tc main_arg2) = x2) :
    after (((((ops (F := F)).drop 11).drop 14).drop 5).drop 19) W (Proc.devRef .tc main_v37) = Read.val_main_v37 (F := F) x0 x1 x2 := by
  simp only [ops, List.take, List.drop]
  after_results_simp
  simp only [h15, ha0, ha1, ha2]
  rfl

set_option maxRecDepth 65536 in
set_option maxHeartbeats 4000000 in
theorem wE_v22 (W : Valuation τ sig (Elt F)) (x0 : (⟨S1000000x128, .f32⟩ : BufTy).Contents (Elt F)) (x1 : (⟨S1000000, .i32⟩ : BufTy).Contents (Elt F)) (x2 : (⟨S10x128, .f32⟩ : BufTy).Contents (Elt F))
    (h15 : W (Proc.devRef .tc main_v15) = Read.val_main_v15 (F := F) x0 x1 x2) (h7 : W (Proc.devRef .tc main_v7) = Read.val_main_v7 (F := F) x0 x1 x2) (ha2 : W (Proc.devRef .tc main_arg2) = x2) :
    after (((((ops (F := F)).drop 11).drop 14).drop 5).drop 19) W (Proc.devRef .tc main_v22) = Read.val_main_v22 (F := F) x0 x1 x2 := by
  simp only [ops, List.take, List.drop]
  after_results_simp
  simp only [h15, h7, ha2]
  rfl

set_option maxRecDepth 65536 in
set_option maxHeartbeats 4000000 in
theorem wE_a0 (W : Valuation τ sig (Elt F)) :
    after (((((ops (F := F)).drop 11).drop 14).drop 5).drop 19) W (Proc.devRef .tc main_arg0) = W (Proc.devRef .tc main_arg0) := by
  simp only [ops, List.take, List.drop]
  after_results_simp <;> rfl

set_option maxRecDepth 65536 in
set_option maxHeartbeats 4000000 in
theorem wE_a1 (W : Valuation τ sig (Elt F)) :
    after (((((ops (F := F)).drop 11).drop 14).drop 5).drop 19) W (Proc.devRef .tc main_arg1) = W (Proc.devRef .tc main_arg1) := by
  simp only [ops, List.take, List.drop]
  after_results_simp <;> rfl

set_option maxRecDepth 65536 in
set_option maxHeartbeats 4000000 in
theorem wE_a2 (W : Valuation τ sig (Elt F)) :
    after (((((ops (F := F)).drop 11).drop 14).drop 5).drop 19) W (Proc.devRef .tc main_arg2) = W (Proc.devRef .tc main_arg2) := by
  simp only [ops, List.take, List.drop]
  after_results_simp <;> rfl

/-! ## The windows chained -/

section Chain
variable (V : Valuation τ sig (Elt F))

theorem all_arg0 : after (ops (F := F)) V (Proc.devRef .tc main_arg0) = V (Proc.devRef .tc main_arg0) := by
  rw [after_ops, wE_a0, wD_a0, wC_a0, wB_a0, wA_a0]
theorem all_arg1 : after (ops (F := F)) V (Proc.devRef .tc main_arg1) = V (Proc.devRef .tc main_arg1) := by
  rw [after_ops, wE_a1, wD_a1, wC_a1, wB_a1, wA_a1]
theorem all_arg2 : after (ops (F := F)) V (Proc.devRef .tc main_arg2) = V (Proc.devRef .tc main_arg2) := by
  rw [after_ops, wE_a2, wD_a2, wC_a2, wB_a2, wA_a2]

/-- The contents after the first one, two, three and four windows hold the stages the later windows read. -/
theorem chain_facts :
    let x0 := V (Proc.devRef .tc main_arg0); let x1 := V (Proc.devRef .tc main_arg1); let x2 := V (Proc.devRef .tc main_arg2)
    let W1 := after ((ops (F := F)).take 11) V; let W2 := after (((ops (F := F)).drop 11).take 14) W1; let W3 := after ((((ops (F := F)).drop 11).drop 14).take 5) W2; let W4 := after (((((ops (F := F)).drop 11).drop 14).drop 5).take 19) W3
    W4 (Proc.devRef .tc main_v15) = Read.val_main_v15 (F := F) x0 x1 x2 ∧ W4 (Proc.devRef .tc main_v7) = Read.val_main_v7 (F := F) x0 x1 x2
      ∧ W4 (Proc.devRef .tc main_arg0) = x0 ∧ W4 (Proc.devRef .tc main_arg1) = x1 ∧ W4 (Proc.devRef .tc main_arg2) = x2 := by
  intro x0 x1 x2 W1 W2 W3 W4
  have a0 : W1 (Proc.devRef .tc main_arg0) = x0 := wA_a0 V
  have a1 : W1 (Proc.devRef .tc main_arg1) = x1 := wA_a1 V
  have a2 : W1 (Proc.devRef .tc main_arg2) = x2 := wA_a2 V
  have v1 : W1 (Proc.devRef .tc main_v1) = Read.val_main_v1 (F := F) x0 x2 := wA_v1 V x0 x1 x2 rfl rfl
  have v5 : W1 (Proc.devRef .tc main_call0_v5) = Read.val_main_call0_v5 (F := F) x1 := wA_v5 V x0 x1 x2 rfl
  have b0 : W2 (Proc.devRef .tc main_arg0) = x0 := (wB_a0 W1).trans a0
  have b1 : W2 (Proc.devRef .tc main_arg1) = x1 := (wB_a1 W1).trans a1
  have b2 : W2 (Proc.devRef .tc main_arg2) = x2 := (wB_a2 W1).trans a2
  have bv1 : W2 (Proc.devRef .tc main_v1) = Read.val_main_v1 (F := F) x0 x2 := (wB_v1 W1).trans v1
  have bv3 : W2 (Proc.devRef .tc main_v3) = Read.val_main_v3 (F := F) x0 x1 x2 := wB_v3 W1 x0 x1 x2 v1 v5
  have c0 : W3 (Proc.devRef .tc main_arg0) = x0 := (wC_a0 W2).trans b0
  have c1 : W3 (Proc.devRef .tc main_arg1) = x1 := (wC_a1 W2).trans b1
  have c2 : W3 (Proc.devRef .tc main_arg2) = x2 := (wC_a2 W2).trans b2
  have cv7 : W3 (Proc.devRef .tc main_v7) = Read.val_main_v7 (F := F) x0 x1 x2 := wC_v7 W2 x0 x1 x2 bv1 bv3
  exact ⟨wD_v15 W3 x0 x1 x2 cv7 c1, (wD_v7 W3).trans cv7, (wD_a0 W3).trans c0, (wD_a1 W3).trans c1, (wD_a2 W3).trans c2⟩

theorem all_v37 : after (ops (F := F)) V (Proc.devRef .tc main_v37)
    = Read.val_main_v37 (F := F) (V (Proc.devRef .tc main_arg0)) (V (Proc.devRef .tc main_arg1)) (V (Proc.devRef .tc main_arg2)) := by
  rw [after_ops]
  obtain ⟨h15, h7, h0, h1, h2⟩ := chain_facts V
  exact wE_v37 _ _ _ _ h15 h0 h1 h2

theorem all_v22 : after (ops (F := F)) V (Proc.devRef .tc main_v22)
    = Read.val_main_v22 (F := F) (V (Proc.devRef .tc main_arg0)) (V (Proc.devRef .tc main_arg1)) (V (Proc.devRef .tc main_arg2)) := by
  rw [after_ops]
  obtain ⟨h15, h7, h0, h1, h2⟩ := chain_facts V
  exact wE_v22 _ _ _ _ h15 h7 h2

end Chain

/-! ## The run -/

set_option maxRecDepth 8192 in
set_option maxHeartbeats 31600000 in
/-- On every device, for any float values, from any memory with zero counters: every weakly fair execution of
    the reference terminates with the gradient buffer and the loss buffer at their stage functions of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = Read.val_main_v37 (F := F) (m ((c.tc : Thread nD τ).loc main_arg0)) (m ((c.tc : Thread nD τ).loc main_arg1)) (m ((c.tc : Thread nD τ).loc main_arg2))
      ∧ r.2.mem ((c.tc : Thread nD τ).loc main_v22)
        = Read.val_main_v22 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v37).trans (all_v37 (launchContents m c)),
      (h c main_v22).trans (all_v22 (launchContents m c)),
      (h c main_arg0).trans (all_arg0 (launchContents m c)),
      (h c main_arg1).trans (all_arg1 (launchContents m c)),
      (h c main_arg2).trans (all_arg2 (launchContents m c))⟩)
    (run_seq scopedRefs_eq scopedSems_eq defs main (fun _ => ops) main_eq (fun _ => ops_sub) m ρ)

end Cert.ReferenceIdeal.Stages

end
-- ==== Proof.Spec.lean ====
/-
  The multiclass hinge loss of a linear classifier and its gradient, on the extended reals.

  For a data matrix `X : [1000000, 128]`, integer labels `y : [1000000]` and weights `w : [10, 128]`:
  the score of a row `x` for class `c` is `∑ d, x d * w c d`; the margin of class `c` is its score minus the score
  of the row's own class plus one; a class VIOLATES at a row when its margin is positive and it is not the row's own
  class; the loss is the mean over the rows of the violating margins' sum, plus half the regulariser times `∑ w²`;
  the gradient's row `c` receives `-x` for every row at which `c` violates and `+x` times the number of violating
  classes for every row whose label is `c`, all divided by the number of rows, plus the regulariser times `w`.

  Everything about ONE row is a function of the row `x`, its label word `yv`, the weights, and the number `corr`
  taken as the score of the row's own class. Two arrangements differ in `corr` and in how the rows are summed.
  THE TILED ONE takes `corr` as the sum over the classes of the one-hot row times the scores, walks the rows in 250
  tiles of 4000, and from each tile takes one [10, 128] matrix `∑ r, (hot * count - mask) r c * x r d` and one
  number; the tiles' contributions are summed, scaled, and the regulariser added.
  THE WHOLE-ARRAY ONE reads `corr` at the label, sums over every row at once, and forms the gradient as a sum
  over the rows with a given label (of count times the row) minus the sum over all rows of mask times the row.
  The float literals stay the words the programs carry: the same word on both sides is never evaluated.
-/
import Idealize.ShloMosaic.PureOps.Ideal
import Idealize.ShloMosaic.Lib.ValueIdx

noncomputable section

open scoped BigOperators

namespace Cert.Svm

open Idealize.ShloMosaic

/-- The words of the literals: `0.0`, `1.0`, `f32(1/1000000)`, `f32(0.05)`, `f32(0.025)`. -/
abbrev zero : EReal := Ideal.ofBits .f32 0x00000000#32
abbrev one : EReal := Ideal.ofBits .f32 0x3F800000#32
abbrev invN : EReal := Ideal.ofBits .f32 0x358637BD#32
abbrev reg : EReal := Ideal.ofBits .f32 0x3D4CCCCD#32
abbrev halfReg : EReal := Ideal.ofBits .f32 0x3CCCCCCD#32

/-- A class violates: its margin `mg` is above zero and the one-hot entry `h` of the row at that class is zero. The
    value is the word `1.0` then and the word `0.0` otherwise, selected on the conjunction of the two comparisons. -/
def viol (mg h : EReal) : EReal :=
  Scalar.select (IntOp.andi (Ideal.cmp .ogt mg zero) (Ideal.cmp .oeq h zero)) one zero

/-! ### One row -/

section Row
variable (x : Fin 128 → EReal) (yv : BitVec 32) (w : Fin 10 → Fin 128 → EReal) (corr : EReal)

/-- The score of the row for class `c`. -/
def scoreRow (c : Fin 10) : EReal := ∑ d : Fin 128, x d * w c d

/-- The one-hot row of the label: `1` at the class whose number is the label, `0` elsewhere (all zero for a label
    that is no class number). -/
def hotv (c : Fin 10) : EReal := if yv = BitVec.ofNat 32 c.val then 1 else 0

/-- The score of the row's own class, as the one-hot row times the scores, summed over the classes. -/
def corrK : EReal := ∑ c : Fin 10, hotv yv c * scoreRow x w c

/-- The label as a class number (for a label in range, the label itself), and the score read there. -/
def labv : Fin 10 := ⟨yv.toNat % 10, Nat.mod_lt _ (by decide)⟩
def corrR : EReal := scoreRow x w (labv yv)

def margOf (c : Fin 10) : EReal := scoreRow x w c - corr + one
def maskOf (c : Fin 10) : EReal := viol (margOf x w corr c) (hotv yv c)
/-- The number of violating classes of the row. -/
def cntOf : EReal := ∑ c : Fin 10, maskOf x yv w corr c
/-- What the row contributes to the gradient's row `c`, as a multiple of the row. -/
def combOf (c : Fin 10) : EReal := hotv yv c * cntOf x yv w corr - maskOf x yv w corr c
/-- The sum of the row's violating margins. -/
def lossOf : EReal := ∑ c : Fin 10, maskOf x yv w corr c * margOf x w corr c

end Row

/-- `∑ w²`, class by class. -/
def wsq (w : Fin 10 → Fin 128 → EReal) : EReal := ∑ c : Fin 10, ∑ d : Fin 128, w c d * w c d

section
variable (X : Fin 1000000 → Fin 128 → EReal) (y : Fin 1000000 → BitVec 32) (w : Fin 10 → Fin 128 → EReal)

/-! ### The tiled arrangement -/

/-- Row `r` of tile `t`. -/
def row (t : Fin 250) (r : Fin 4000) : Fin 1000000 := ⟨4000 * t.val + r.val, by omega⟩

def tileGrad (t : Fin 250) (c : Fin 10) (d : Fin 128) : EReal :=
  ∑ r : Fin 4000, combOf (X (row t r)) (y (row t r)) w (corrK (X (row t r)) (y (row t r)) w) c * X (row t r) d
def tileLoss (t : Fin 250) : EReal :=
  ∑ r : Fin 4000, lossOf (X (row t r)) (y (row t r)) w (corrK (X (row t r)) (y (row t r)) w)

def Kgrad (c : Fin 10) (d : Fin 128) : EReal := (∑ t : Fin 250, tileGrad X y w t c d) * invN + reg * w c d
def Kloss : EReal := (∑ t : Fin 250, tileLoss X y w t) * invN + halfReg * wsq w

/-! ### The whole-array arrangement -/

def Rloss : EReal :=
  (∑ i : Fin 1000000, lossOf (X i) (y i) w (corrR (X i) (y i) w)) * invN + halfReg * wsq w
def Rgrad (c : Fin 10) (d : Fin 128) : EReal :=
  ((∑ i ∈ Finset.univ.filter (fun i : Fin 1000000 => (y i).toInt = (c.val : Int)),
        cntOf (X i) (y i) w (corrR (X i) (y i) w) * X i d)
    - ∑ i : Fin 1000000, maskOf (X i) (y i) w (corrR (X i) (y i) w) c * X i d) * invN + reg * w c d

end

/-! ### The hypotheses: finite data, labels that are class numbers -/

def Finite2 {a b : Nat} (v : Fin a → Fin b → EReal) : Prop := ∀ i j, v i j ≠ ⊤ ∧ v i j ≠ ⊥
def InRange (y : Fin 1000000 → BitVec 32) : Prop := ∀ i, 0 ≤ (y i).toInt ∧ (y i).toInt < 10

/-! ### The same over arrays -/

/-- A rank-2 array as a function of its two coordinates; a rank-1 array as a function of its one. -/
def mat {α : Type} {a b : Nat} (v : (⟨2, ![a, b]⟩ : Shape).Idx → α) : Fin a → Fin b → α :=
  fun i j => v (ValueIdx.ix2 i j)
def vec {α : Type} {a : Nat} (v : (⟨1, ![a]⟩ : Shape).Idx → α) : Fin a → α := fun i => v (ValueIdx.ix1 i)

section
variable (x0 : (⟨2, ![1000000, 128]⟩ : Shape).Idx → EReal) (x1 : (⟨1, ![1000000]⟩ : Shape).Idx → BitVec 32)
  (x2 : (⟨2, ![10, 128]⟩ : Shape).Idx → EReal)

def KgradArr : (⟨2, ![10, 128]⟩ : Shape).Idx → EReal := fun j => Kgrad (mat x0) (vec x1) (mat x2) (j 0) (j 1)
def KlossArr : (⟨0, ![]⟩ : Shape).Idx → EReal := fun _ => Kloss (mat x0) (vec x1) (mat x2)
def RgradArr : (⟨2, ![10, 128]⟩ : Shape).Idx → EReal := fun j => Rgrad (mat x0) (vec x1) (mat x2) (j 0) (j 1)
def RlossArr : (⟨0, ![]⟩ : Shape).Idx → EReal := fun _ => Rloss (mat x0) (vec x1) (mat x2)
end

end Cert.Svm

end
-- ==== Proof.Algebra.lean ====
/-
  The tiled arrangement of the hinge loss and its gradient equals the whole-array one, for finite data and labels
  that are class numbers.

  Three facts carry it. (1) For a label that is a class number the one-hot row has a single non-zero entry, at the
  label, so the one-hot sum of the scores is the score read at the label. (2) Walking the rows tile by tile is a
  re-indexing of the sum over all rows along the bijection (t, r) ↦ 4000 t + r. (3) A violation indicator is the
  word 1.0 or the word 0.0, both real numbers, so the per-row count and mask are real; with finite data every summand
  of the gradient is a coerced real, and in the reals the sum of (hot * count - mask) * x splits into the sum over the
  rows carrying the label minus the mask's sum.
-/
import proofs.«407127_j42941083025647_1_alg».proof.Proof.Spec
import Idealize.ShloMosaic.PureOps.Ideal.Laws
import Mathlib.Data.EReal.Basic
import Mathlib.Data.EReal.Operations
import Mathlib.Algebra.BigOperators.Group.Finset.Basic
import Mathlib.Algebra.BigOperators.Ring.Finset
import Mathlib.Algebra.BigOperators.Fin
import Mathlib.Logic.Equiv.Fin.Basic

noncomputable section

open scoped BigOperators

namespace Cert.Svm

open Idealize.ShloMosaic

/-! ### The two literal words that are evaluated: 0.0 and 1.0 -/

private theorem zero_eq : zero = (0 : EReal) := Ideal.ofBits_zero_f32

private theorem one_eq : one = (1 : EReal) := IdealRules.sign_bit.ideal_onePat .f32

/-- A violation indicator is 1 or 0, whatever its arguments. -/
private theorem viol_cases (mg h : EReal) : viol mg h = 1 ∨ viol mg h = 0 := by
  unfold viol Scalar.select
  split_ifs
  · exact Or.inl one_eq
  · exact Or.inr zero_eq

/-- A finite sum of coerced reals is the coercion of the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### One row: the mask and the count are real -/

section Row
variable (x : Fin 128 → EReal) (yv : BitVec 32) (w : Fin 10 → Fin 128 → EReal) (corr : EReal)

private theorem maskOf_real (c : Fin 10) : ∃ r : ℝ, maskOf x yv w corr c = (r : EReal) := by
  unfold maskOf
  rcases viol_cases (margOf x w corr c) (hotv yv c) with h | h
  · exact ⟨1, by rw [h, EReal.coe_one]⟩
  · exact ⟨0, by rw [h, EReal.coe_zero]⟩

private theorem cntOf_real : ∃ r : ℝ, cntOf x yv w corr = (r : EReal) := by
  choose m hm using maskOf_real x yv w corr
  refine ⟨∑ c : Fin 10, m c, ?_⟩
  unfold cntOf
  rw [← coe_sum]
  exact Finset.sum_congr rfl fun c _ => hm c

/-! ### One row: the one-hot row of a class number -/

/-- The label word is the word of the class number c exactly when it reads, signed, as c. -/
private theorem hot_iff (c : Fin 10) : yv = BitVec.ofNat 32 c.val ↔ yv.toInt = (c.val : Int) := by
  have hc := c.isLt
  have h1 := BitVec.toInt_eq_toNat_cond yv
  have h2 := yv.isLt
  rw [← BitVec.toNat_inj, BitVec.toNat_ofNat, Nat.mod_eq_of_lt (by omega : c.val < 2 ^ 32)]
  split_ifs at h1 <;> omega

private theorem hotv_eq (c : Fin 10) : hotv yv c = if yv.toInt = (c.val : Int) then 1 else 0 := by
  unfold hotv
  by_cases h : yv.toInt = (c.val : Int)
  · rw [if_pos h, if_pos ((hot_iff yv c).mpr h)]
  · rw [if_neg h, if_neg (fun h' => h ((hot_iff yv c).mp h'))]

/-- For a label that is a class number, the class number read back from it reads, signed, as the label. -/
private theorem labv_toInt (hy : 0 ≤ yv.toInt ∧ yv.toInt < 10) : yv.toInt = ((labv yv).val : Int) := by
  have h1 := BitVec.toInt_eq_toNat_cond yv
  have h2 := yv.isLt
  unfold labv
  simp only
  split_ifs at h1 <;> omega

/-- For a label that is a class number the one-hot sum of the scores is the score at the label. -/
private theorem corrK_eq_corrR (hy : 0 ≤ yv.toInt ∧ yv.toInt < 10) : corrK x yv w = corrR x yv w := by
  unfold corrK corrR
  rw [Finset.sum_eq_single (labv yv)]
  · rw [hotv_eq, if_pos (labv_toInt yv hy), one_mul]
  · intro c _ hne
    rw [hotv_eq, if_neg, zero_mul]
    intro h
    apply hne
    apply Fin.ext
    have := labv_toInt yv hy
    omega
  · intro h
    exact absurd (Finset.mem_univ _) h

end Row

/-! ### The rows, tile by tile, are all the rows -/

/-- The bijection between (tile, row in the tile) and the row's number. -/
private def tileEquiv : Fin 250 × Fin 4000 ≃ Fin 1000000 :=
  finProdFinEquiv.trans (finCongr (by norm_num))

private theorem tileEquiv_apply (p : Fin 250 × Fin 4000) : tileEquiv p = row p.1 p.2 := by
  apply Fin.ext
  simp only [tileEquiv, row, Equiv.trans_apply, finProdFinEquiv_apply_val, finCongr_apply, Fin.val_cast]
  omega

private theorem sum_tiles {M : Type*} [AddCommMonoid M] (f : Fin 1000000 → M) :
    ∑ t : Fin 250, ∑ r : Fin 4000, f (row t r) = ∑ i : Fin 1000000, f i := by
  rw [← Fintype.sum_prod_type']
  exact Fintype.sum_equiv tileEquiv _ _ fun p => by rw [tileEquiv_apply]

/-! ### The gradient's split, in the reals -/

/-- In the reals: the sum of (hot * count - mask) * x, with hot the indicator of a set of rows, is the sum of
    count * x over that set minus the sum of mask * x over all rows. -/
private theorem real_split {ι : Type*} [Fintype ι] (p : ι → Prop) [DecidablePred p] (a m x : ι → ℝ) :
    ∑ i, ((if p i then (1 : ℝ) else 0) * a i - m i) * x i
      = (∑ i ∈ Finset.univ.filter p, a i * x i) - ∑ i, m i * x i := by
  simp only [sub_mul, Finset.sum_sub_distrib]
  congr 1
  rw [Finset.sum_filter]
  refine Finset.sum_congr rfl fun i _ => ?_
  split_ifs <;> simp

/-- The same on the extended reals, for a one-hot factor that is 1 or 0 and coerced reals. -/
private theorem ereal_split {ι : Type*} [Fintype ι] (p : ι → Prop) [DecidablePred p]
    (h A Mk Xd : ι → EReal) (hh : ∀ i, h i = if p i then 1 else 0)
    (hA : ∀ i, ∃ r : ℝ, A i = (r : EReal)) (hM : ∀ i, ∃ r : ℝ, Mk i = (r : EReal))
    (hX : ∀ i, ∃ r : ℝ, Xd i = (r : EReal)) :
    ∑ i, (h i * A i - Mk i) * Xd i
      = (∑ i ∈ Finset.univ.filter p, A i * Xd i) - ∑ i, Mk i * Xd i := by
  choose a ha using hA
  choose m hm using hM
  choose x hx using hX
  have hL : ∀ i, (h i * A i - Mk i) * Xd i
      = ((((if p i then (1 : ℝ) else 0) * a i - m i) * x i : ℝ) : EReal) := by
    intro i
    rw [hh i, ha i, hm i, hx i, EReal.coe_mul, EReal.coe_sub, EReal.coe_mul]
    split_ifs <;> simp
  have hR1 : ∀ i, A i * Xd i = ((a i * x i : ℝ) : EReal) := fun i => by rw [ha i, hx i, EReal.coe_mul]
  have hR2 : ∀ i, Mk i * Xd i = ((m i * x i : ℝ) : EReal) := fun i => by rw [hm i, hx i, EReal.coe_mul]
  rw [Finset.sum_congr rfl fun i _ => hL i, Finset.sum_congr rfl fun i _ => hR1 i,
    Finset.sum_congr rfl fun i _ => hR2 i, coe_sum, coe_sum, coe_sum, ← EReal.coe_sub, real_split]

/-- A finite extended real is a coerced real. -/
private theorem real_of_finite {v : EReal} (h : v ≠ ⊤ ∧ v ≠ ⊥) : ∃ r : ℝ, v = (r : EReal) :=
  ⟨v.toReal, (EReal.coe_toReal h.1 h.2).symm⟩

/-! ### The two equations -/

theorem grad_eq (X : Fin 1000000 → Fin 128 → EReal) (y : Fin 1000000 → BitVec 32) (w : Fin 10 → Fin 128 → EReal)
    (hX : Finite2 X) (hw : Finite2 w) (hy : InRange y) (c : Fin 10) (d : Fin 128) :
    Kgrad X y w c d = Rgrad X y w c d := by
  unfold Kgrad Rgrad
  refine congrArg (fun s : EReal => s * invN + reg * w c d) ?_
  simp only [tileGrad]
  rw [sum_tiles (fun i => combOf (X i) (y i) w (corrK (X i) (y i) w) c * X i d)]
  rw [Finset.sum_congr rfl fun i _ => by rw [corrK_eq_corrR (X i) (y i) w (hy i)]]
  simp only [combOf]
  exact ereal_split (fun i => (y i).toInt = (c.val : Int))
    (fun i => hotv (y i) c) (fun i => cntOf (X i) (y i) w (corrR (X i) (y i) w))
    (fun i => maskOf (X i) (y i) w (corrR (X i) (y i) w) c) (fun i => X i d)
    (fun i => hotv_eq (y i) c) (fun i => cntOf_real _ _ _ _) (fun i => maskOf_real _ _ _ _ c)
    (fun i => real_of_finite (hX i d))

theorem loss_eq (X : Fin 1000000 → Fin 128 → EReal) (y : Fin 1000000 → BitVec 32) (w : Fin 10 → Fin 128 → EReal)
    (hX : Finite2 X) (hw : Finite2 w) (hy : InRange y) :
    Kloss X y w = Rloss X y w := by
  unfold Kloss Rloss
  refine congrArg (fun s : EReal => s * invN + halfReg * wsq w) ?_
  simp only [tileLoss]
  rw [sum_tiles (fun i => lossOf (X i) (y i) w (corrK (X i) (y i) w))]
  exact Finset.sum_congr rfl fun i _ => by rw [corrK_eq_corrR (X i) (y i) w (hy i)]

end Cert.Svm

end
-- ==== Proof.PreFacts.lean ====
/-
  What the precondition says of the argument arrays: every entry of the data and of the weights is a real number, and
  every label is one of the ten class numbers.
-/
import proofs.«407127_j42941083025647_1_alg».proof.Pre_finite_inputs
import proofs.«407127_j42941083025647_1_alg».proof.Proof.Gen.Pre_finite_inputs
import proofs.«407127_j42941083025647_1_alg».proof.Proof.Spec
import Idealize.ShloMosaic.Lib.ReduceAll

noncomputable section

namespace Cert.PreFacts

open Idealize.ShloMosaic Cert.Pre_finite_inputs

/-- The scalar shape has one index. -/
private instance : Subsingleton S_.Idx := ⟨fun a b => funext fun d => d.elim0⟩

/-- The word of the positive infinity is the top element. -/
private theorem inf_word : Ideal.ofBits .f32 0x7F800000#32 = (⊤ : EReal) := by
  simp [Ideal.ofBits, Ideal.ieee]

/-- An extended real whose absolute value `max x (-x)` lies strictly below the top element is a real number. -/
private theorem real_of_abs_lt (x : EReal) (h : Ideal.cmp .olt (max x (-x)) (Ideal.ofBits .f32 0x7F800000#32) = 1#1) :
    x ≠ ⊤ ∧ x ≠ ⊥ := by
  rw [inf_word] at h
  induction x using EReal.rec with
  | bot => simp [Ideal.cmp] at h
  | coe r => exact ⟨EReal.coe_ne_top r, EReal.coe_ne_bot r⟩
  | top => simp [Ideal.cmp] at h

theorem pre_facts (x0 : FVec Ideal S1000000x128 .f32) (x1 : IVec S1000000 32) (x2 : FVec Ideal S10x128 .f32)
    (h : Cert.Pre_finite_inputs.fn (F := Ideal) x0 x1 x2 = fun _ => 1#1) :
    Cert.Svm.Finite2 (Cert.Svm.mat x0) ∧ Cert.Svm.Finite2 (Cert.Svm.mat x2) ∧ Cert.Svm.InRange (Cert.Svm.vec x1) := by
  have h0 := congrFun h ValueIdx.ix0
  dsimp only [Cert.Pre_finite_inputs.fn] at h0
  obtain ⟨h01, hc⟩ := IntOp.andi_eq_one.1 h0
  obtain ⟨ha, hb⟩ := IntOp.andi_eq_one.1 h01
  refine ⟨fun i j => ?_, fun i j => ?_, fun i => ?_⟩
  · exact real_of_abs_lt _ (Host.reduce_andi_all _ _ _ _ _ ha (ValueIdx.ix2 i j))
  · exact real_of_abs_lt _ (Host.reduce_andi_all _ _ _ _ _ hb (ValueIdx.ix2 i j))
  · have hi := Host.reduce_andi_all _ _ _ _ _ hc (ValueIdx.ix1 i)
    obtain ⟨hge, hlt⟩ := IntOp.andi_eq_one.1 hi
    have h1 : (0#32 : BitVec 32).toInt ≤ (x1 (ValueIdx.ix1 i)).toInt := IntOp.cmpi_sge.1 hge
    have h2 : (x1 (ValueIdx.ix1 i)).toInt < (10#32 : BitVec 32).toInt := IntOp.cmpi_slt.1 hlt
    rw [show (0#32 : BitVec 32).toInt = 0 from by decide] at h1
    rw [show (10#32 : BitVec 32).toInt = 10 from by decide] at h2
    exact ⟨h1, h2⟩

end Cert.PreFacts

end
-- ==== Proof.LibGatherLast.lean ====
/-
  A gather along the last axis of a rank-2 array, read at an index.

  What `take_along_axis(x, idx, axis = 1)` of an array `x : [B, N]` at an integer array `idx : [B, P]` lowers to:
  `stablehlo.gather` with axis 0 a batching axis on both sides, operand axis 1 collapsed and named by the start index
  map, the index vector on a third unit axis of the start indices, and slices of one element. Result element `(b, p)`
  is the operand at `(b, j)` where `j` is the start index `idx[b, p, 0]` read as a signed integer and clamped into
  `[0, N − 1]`, as the gather clamps every start index so that the slice fits.
-/
import Idealize.ShloMosaic.Lib.ValueIdx

namespace Cert.GatherLast

open Idealize.ShloMosaic Idealize.ShloMosaic.ValueIdx

/-- Those dimension numbers for an operand `[B, N]`, start indices `[B, P, 1]` and result `[B, P]`; their conditions
    `wf` are decided on a program's literal shapes. -/
abbrev lastDims (B N P : Nat)
    (wf : GatherDims.WF ⟨2, ![B, N]⟩ ⟨3, ![B, P, 1]⟩ ⟨2, ![B, P]⟩ [] [1] [0] [1] [0] 2 ![1, 1]) :
    GatherDims ⟨2, ![B, N]⟩ ⟨3, ![B, P, 1]⟩ ⟨2, ![B, P]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, p)`: the operand at `(b, j)`, `j` the start index `idx[b, p, 0]` read signed and clamped
    into `[0, N − 1]`. -/
theorem gather_last_apply {α : Type} {B N P w : Nat} (hN : 0 < N)
    (wf : GatherDims.WF ⟨2, ![B, N]⟩ ⟨3, ![B, P, 1]⟩ ⟨2, ![B, P]⟩ [] [1] [0] [1] [0] 2 ![1, 1])
    (x : (⟨2, ![B, N]⟩ : Shape).Idx → α) (idx : IVec ⟨3, ![B, P, 1]⟩ w) (b : Fin B) (p : Fin P) :
    Host.gather (lastDims B N P wf) x idx (ix2 b p)
      = x (ix2 b ⟨min (idx (ix3 b p (0 : Fin 1))).toInt.toNat (N - 1), by omega⟩) := by
  show x ((lastDims B N P wf).operandIdx (ix2 b p) idx) = _
  refine congrArg x (funext fun a => Fin.ext ?_)
  show (lastDims B N P wf).start (ix2 b p) idx a + (lastDims B N P wf).batchCoord (ix2 b p) a
    + (lastDims B N P wf).offCoord (ix2 b p) a = _
  match a with
  | ⟨0, h0⟩ =>
    -- the batching axis: no start index, no offset, the result's own first coordinate
    have hb : (⟨0, h0⟩ : Fin 2) ∈ (lastDims B N P wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- the indexed, collapsed axis: the clamped start index alone
    have hm : (⟨1, h1⟩ : Fin 2) ∈ (lastDims B N P wf).startIndexMap := List.mem_singleton.mpr rfl
    rw [GatherDims.batchCoord_eq_zero _ _ _ (GatherDims.sim_disjoint _ _ hm),
      GatherDims.offCoord_eq_zero _ _ _ (fun h => ((GatherDims.mem_sKept _ _).mp h).1 (List.mem_singleton.mpr rfl))]
    simp only [Nat.add_zero]
    unfold GatherDims.start
    rw [dif_pos hm]
    have hsi : (lastDims B N P wf).siIdx (ix2 b p) ⟨List.idxOf (⟨1, h1⟩ : Fin 2) (lastDims B N P wf).startIndexMap,
        List.idxOf_lt_length_iff.2 hm⟩ = ix3 b p (0 : Fin 1) := by
      funext c; refine Fin.ext ?_
      match c with
      | ⟨0, _⟩ => rfl
      | ⟨1, _⟩ => rfl
      | ⟨2, _⟩ => rfl
    rw [hsi]
    rfl

end Cert.GatherLast
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.RefValue.lean ====
/-
  The reference's two results, stage by stage, are the whole-array arrangement of the hinge loss and its gradient.
-/
import proofs.«407127_j42941083025647_1_alg».proof.Proof.RefRead
import proofs.«407127_j42941083025647_1_alg».proof.Proof.LibGatherLast
import proofs.«407127_j42941083025647_1_alg».proof.Proof.LibRowOps
import proofs.«407127_j42941083025647_1_alg».proof.Proof.Spec
import Idealize.ShloMosaic.Lib.Affine
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx
open Cert.ReferenceIdeal.Read Cert.Svm

/-! ### Words: a label in range reads the same signed and unsigned -/

private theorem toInt_zero32 : (0#32 : BitVec 32).toInt = 0 := by decide
private theorem toInt_nine32 : (9#32 : BitVec 32).toInt = 9 := by decide

/-- A 32-bit word whose signed value lies in `[0, 10)` has that value unsigned too. -/
private theorem toNat_of_range (v : BitVec 32) (h0 : 0 ≤ v.toInt) (h1 : v.toInt < 10) :
    v.toInt = (v.toNat : Int) ∧ v.toNat < 10 := by
  have hlt := v.isLt
  have hc := BitVec.toInt_eq_toNat_cond v
  split_ifs at hc with hcase <;> omega

/-- A left fold by `and` of ones from one is one. -/
private theorem foldl_andi_ones {ι : Type} (l : List ι) :
    l.foldl (fun r _ => IntOp.andi r (1#1)) (1#1 : BitVec 1) = 1#1 := by
  induction l with
  | nil => rfl
  | cons a l ih =>
    rw [List.foldl_cons, show IntOp.andi (1#1) (1#1) = (1#1 : BitVec 1) from by decide]
    exact ih

section
variable (x0 : FVec Ideal S1000000x128 .f32) (x1 : IVec S1000000 32) (x2 : FVec Ideal S10x128 .f32)

/-- Every label, at any index of the label array, is a class number. -/
private theorem lab_range (hy : InRange (vec x1)) (m : S1000000.Idx) :
    0 ≤ (x1 m).toInt ∧ (x1 m).toInt < 10 := by
  obtain ⟨a, rfl⟩ : ∃ a : Fin 1000000, m = ix1 a := ⟨m 0, eq_ix1 m⟩
  exact hy a

/-! ### The index functions of the layout operations, at coordinates -/

private theorem lidx_v1 (i : Fin 1000000) (c : Fin 10) (k : Fin 128) : lidx_main_v1 (ix2 i c) k = ix2 i k :=
  funext fun a => Fin.ext (by match a with | ⟨0, _⟩ => rfl | ⟨1, _⟩ => rfl)
private theorem ridx_v1 (i : Fin 1000000) (c : Fin 10) (k : Fin 128) : ridx_main_v1 (ix2 i c) k = ix2 k c :=
  funext fun a => Fin.ext (by match a with | ⟨0, _⟩ => rfl | ⟨1, _⟩ => rfl)
private theorem idx_v0 (k : Fin 128) (c : Fin 10) : idx_main_v0 (ix2 k c) = ix2 c k :=
  funext fun a => Fin.ext (by match a with | ⟨0, _⟩ => rfl | ⟨1, _⟩ => rfl)
private theorem idx_v4 (i : Fin 1000000) (c : Fin 10) : idx_main_v4 (ix2 i c) = ix2 i (0 : Fin 1) :=
  funext fun a => Fin.ext (by match a with | ⟨0, _⟩ => rfl | ⟨1, _⟩ => rfl)

/-! ### The scores -/

/-- The scores: element `(i, c)` of `X · wᵀ` is the score of row `i` for class `c`. -/
private theorem v1_at (i : Fin 1000000) (c : Fin 10) :
    val_main_v1 (F := Ideal) x0 x2 (ix2 i c) = scoreRow (mat x0 i) (mat x2) c := by
  rw [val_main_v1_apply]
  unfold scoreRow
  refine Finset.sum_congr rfl fun k _ => ?_
  rw [val_main_v0_apply, lidx_v1, ridx_v1, idx_v0]
  rfl

/-! ### The score of the row's own class: take_along_axis at a label in range -/

/-- The normalised index (`y + 10` where `y < 0`) is the label itself, no label being negative. -/
private theorem call0_v4_eq (hy : InRange (vec x1)) (k : S1000000x1.Idx) :
    val_main_call0_v4 (F := Ideal) x1 k = x1 (idx_main_v2 k) := by
  rw [val_main_call0_v4_apply, val_main_call0_v1_apply, val_main_v2_apply]
  have h := (lab_range x1 hy (idx_main_v2 k)).1
  have hn : ¬ IntOp.cmpi .slt (x1 (idx_main_v2 k)) (val_main_call0_v0 (F := Ideal) k) = 1#1 := by
    rw [IntOp.cmpi_slt, val_main_call0_v0_apply, val_main_call0_c_apply, toInt_zero32]
    omega
  rw [eq_zero_of_ne_one hn, select_zero]

private theorem call0_v5_eq (hy : InRange (vec x1)) (j : S1000000x1x1.Idx) :
    val_main_call0_v5 (F := Ideal) x1 j = x1 (idx_main_v2 (idx_main_call0_v5 j)) := by
  rw [val_main_call0_v5_apply, call0_v4_eq x1 hy]

/-- The bounds test `0 ≤ index ≤ 9` holds everywhere. -/
private theorem call0_v11_one (hy : InRange (vec x1)) (j : S1000000x1x1.Idx) :
    val_main_call0_v11 (F := Ideal) x1 j = 1#1 := by
  have h := lab_range x1 hy (idx_main_v2 (idx_main_call0_v5 j))
  rw [val_main_call0_v11_apply, IntOp.andi_eq_one, val_main_call0_v7_apply, val_main_call0_v10_apply,
    call0_v5_eq x1 hy, IntOp.cmpi_sge, IntOp.cmpi_sle, val_main_call0_v6_apply, val_main_call0_c_2_apply,
    val_main_call0_v9_apply, val_main_call0_v8_apply, val_main_call0_c_1_apply, toInt_zero32, toInt_nine32]
  omega

/-- So its reduction by `and` over the unit axis, from the constant one, is one everywhere. -/
private theorem call0_v12_one (hy : InRange (vec x1)) (k : S1000000x1.Idx) :
    val_main_call0_v12 (F := Ideal) x1 k = 1#1 := by
  have hx : val_main_call0_v11 (F := Ideal) x1 = fun _ => 1#1 := funext (call0_v11_one x1 hy)
  unfold val_main_call0_v12
  rw [hx, Host.reduce_eq_foldl]
  exact foldl_andi_ones _

/-- The gather reads the scores of row `i` at the row's label. -/
private theorem call0_v13_at (hy : InRange (vec x1)) (i : Fin 1000000) :
    val_main_call0_v13 (F := Ideal) x0 x1 x2 (ix2 i (0 : Fin 1))
      = val_main_v1 (F := Ideal) x0 x2 (ix2 i (labv (x1 (ix1 i)))) := by
  unfold val_main_call0_v13
  generalize val_main_v1 (F := Ideal) x0 x2 = s
  have h5 : val_main_call0_v5 (F := Ideal) x1 (ix3 i (0 : Fin 1) (0 : Fin 1)) = x1 (ix1 i) := by
    rw [call0_v5_eq x1 hy]
    exact congrArg x1 (funext fun a => Fin.ext (by
      match a with
      | ⟨0, _⟩ => show ((i.val * 1 + 0) * 1 + 0) / 1 = i.val; omega))
  have hg := Cert.GatherLast.gather_last_apply (B := 1000000) (N := 10) (P := 1) (by decide)
    gather_S1000000x10_S1000000x1x1_S1000000x1_n_1_0_0_1_2_11_wf s (val_main_call0_v5 (F := Ideal) x1) i (0 : Fin 1)
  refine hg.trans (congrArg s (congrArg (ix2 i) (Fin.ext ?_)))
  show min (val_main_call0_v5 (F := Ideal) x1 (ix3 i (0 : Fin 1) (0 : Fin 1))).toInt.toNat (10 - 1)
    = (x1 (ix1 i)).toNat % 10
  rw [h5]
  obtain ⟨h0, h1⟩ := hy i
  obtain ⟨e, hl⟩ := toNat_of_range (x1 (ix1 i)) h0 h1
  omega

/-- The selected value is the gathered one: the score of the row's own class. -/
private theorem v3_at (hy : InRange (vec x1)) (i : Fin 1000000) :
    val_main_v3 (F := Ideal) x0 x1 x2 (ix2 i (0 : Fin 1)) = corrR (mat x0 i) (vec x1 i) (mat x2) := by
  rw [val_main_v3_apply, call0_v12_one x1 hy, select_one, call0_v13_at x0 x1 x2 hy, v1_at]
  rfl

end

section
variable (x0 : FVec Ideal S1000000x128 .f32) (x1 : IVec S1000000 32) (x2 : FVec Ideal S10x128 .f32)

/-! ### Margin, one-hot row, mask -/

/-- The margin of class `c` at row `i`. -/
private theorem v7_at (hy : InRange (vec x1)) (i : Fin 1000000) (c : Fin 10) :
    val_main_v7 (F := Ideal) x0 x1 x2 (ix2 i c)
      = margOf (mat x0 i) (mat x2) (corrR (mat x0 i) (vec x1 i) (mat x2)) c := by
  rw [val_main_v7_apply, val_main_v5_apply, val_main_v4_apply, idx_v4, v3_at x0 x1 x2 hy, v1_at,
    val_main_v6_apply, val_main_cst_apply]
  rfl

private theorem call1_v2_at (i : Fin 1000000) (c : Fin 10) :
    val_main_call1_v2 (F := Ideal) x1 (ix2 i c) = x1 (ix1 i) := by
  rw [val_main_call1_v2_apply, val_main_call1_v0_apply]
  exact congrArg x1 (funext fun a => Fin.ext (by match a with | ⟨0, _⟩ => rfl))

private theorem call1_v3_at (i : Fin 1000000) (c : Fin 10) :
    val_main_call1_v3 (F := Ideal) (ix2 i c) = BitVec.ofNat 32 c.val := by
  rw [val_main_call1_v3_apply, val_main_call1_v1_apply]

/-- The one-hot row: the comparison of the label with the class number, as a number. -/
private theorem v8_at (i : Fin 1000000) (c : Fin 10) :
    val_main_v8 (F := Ideal) x1 (ix2 i c) = hotv (vec x1 i) c := by
  rw [val_main_v8_apply, val_main_call1_v4_apply, call1_v2_at, call1_v3_at]
  unfold hotv vec
  by_cases h : x1 (ix1 i) = BitVec.ofNat 32 c.val
  · rw [if_pos h, IntOp.cmpi_eq.mpr h]
    show (((1#1 : BitVec 1).toNat : ℝ) : EReal) = 1
    simp
  · rw [if_neg h, eq_zero_of_ne_one (mt IntOp.cmpi_eq.mp h)]
    show (((0#1 : BitVec 1).toNat : ℝ) : EReal) = 0
    simp

/-- The mask: the word one where class `c` violates at row `i`, the word zero elsewhere. -/
private theorem v15_at (hy : InRange (vec x1)) (i : Fin 1000000) (c : Fin 10) :
    val_main_v15 (F := Ideal) x0 x1 x2 (ix2 i c)
      = maskOf (mat x0 i) (vec x1 i) (mat x2) (corrR (mat x0 i) (vec x1 i) (mat x2)) c := by
  rw [val_main_v15_apply, val_main_v14_apply, val_main_v13_apply, val_main_v10_apply, val_main_v12_apply,
    v7_at x0 x1 x2 hy, v8_at, val_main_v9_apply, val_main_cst_0_apply, val_main_v11_apply, val_main_cst_1_apply,
    val_main_call2_v0_apply, val_main_cst_2_apply, val_main_call2_v1_apply, val_main_cst_3_apply]
  rfl

/-! ### The count of violating classes, and the two matrix terms of the gradient -/

private theorem idx_v23 (i : Fin 1000000) (k : Fin 10) : idx_main_v23 (ix1 i) k = ix2 i k :=
  funext fun a => Fin.ext (by match a with | ⟨0, _⟩ => rfl | ⟨1, _⟩ => rfl)

/-- The row sums of the mask. -/
private theorem v23_at (hy : InRange (vec x1)) (i : Fin 1000000) :
    val_main_v23 (F := Ideal) x0 x1 x2 (ix1 i)
      = cntOf (mat x0 i) (vec x1 i) (mat x2) (corrR (mat x0 i) (vec x1 i) (mat x2)) := by
  rw [val_main_v23_apply, val_main_cst_8_apply, Ideal.ofBits_def, Ideal.ofBits_zero_f32, zero_add]
  unfold cntOf
  refine Finset.sum_congr rfl fun k _ => ?_
  rw [idx_v23, v15_at x0 x1 x2 hy]

/-- The count of row `e` times the row. -/
private theorem v28_at (hy : InRange (vec x1)) (e : Fin 1000000) (d : Fin 128) :
    val_main_v28 (F := Ideal) x0 x1 x2 (ix2 e d)
      = cntOf (mat x0 e) (vec x1 e) (mat x2) (corrR (mat x0 e) (vec x1 e) (mat x2)) * mat x0 e d := by
  have e1 : idx_main_v26 (idx_main_v27 (ix2 e d)) = ix1 e :=
    funext fun a => Fin.ext (by match a with | ⟨0, _⟩ => rfl)
  rw [val_main_v28_apply, val_main_v27_apply, val_main_v26_apply, e1, v23_at x0 x1 x2 hy]
  rfl

/-- Maskᵀ · X: element `(a, d)` sums, over all rows, the mask at class `a` times the row's entry `d`. -/
private theorem v25_at (hy : InRange (vec x1)) (a : Fin 10) (d : Fin 128) :
    val_main_v25 (F := Ideal) x0 x1 x2 (ix2 a d)
      = ∑ i : Fin 1000000,
          maskOf (mat x0 i) (vec x1 i) (mat x2) (corrR (mat x0 i) (vec x1 i) (mat x2)) a * mat x0 i d := by
  rw [val_main_v25_apply]
  refine Finset.sum_congr rfl fun k _ => ?_
  have e1 : idx_main_v24 (lidx_main_v25 (ix2 a d) k) = ix2 k a :=
    funext fun b => Fin.ext (by match b with | ⟨0, _⟩ => rfl | ⟨1, _⟩ => rfl)
  have e2 : ridx_main_v25 (ix2 a d) k = ix2 k d :=
    funext fun b => Fin.ext (by match b with | ⟨0, _⟩ => rfl | ⟨1, _⟩ => rfl)
  rw [val_main_v24_apply, e1, e2, v15_at x0 x1 x2 hy]
  rfl

/-- The segment sum read at `(a, d)`, for any operand, indices and updates: the operand's element plus the updates'
    elements `(e, d)` over the rows `e` whose index, read signed, is `a`. -/
private theorem scatter_read (z : FVec Ideal S10x128 .f32) (idx : IVec S1000000x1 32) (u : FVec Ideal S1000000x128 .f32)
    (a : Fin 10) (d : Fin 128) :
    Host.scatterAdd (F := Ideal) scatter_S10x128_S1000000x1_S1000000x128_1_0_0_1 z idx u (ix2 a d)
      = z (ix2 a d) + ∑ e ∈ Finset.univ.filter
          (fun e : Fin 1000000 => (idx (ix2 e ⟨0, Nat.one_pos⟩)).toInt = (a.val : Int)), u (ix2 e d) := by
  rw [Host.scatterAdd, Ideal.hostScatterAdd_def]
  exact Cert.LibRowOps.rowScatterAdd_apply_of (N := 10) (E := 1000000) (D := 128)
    scatter_S10x128_S1000000x1_S1000000x128_1_0_0_1 rfl z idx u (ix2 a d)

/-- The segment sum: row `a` receives, from every row whose label is `a`, the row's count times the row. -/
private theorem v31_at (hy : InRange (vec x1)) (a : Fin 10) (d : Fin 128) :
    val_main_v31 (F := Ideal) x0 x1 x2 (ix2 a d)
      = ∑ i ∈ Finset.univ.filter (fun i : Fin 1000000 => (vec x1 i).toInt = (a.val : Int)),
          cntOf (mat x0 i) (vec x1 i) (mat x2) (corrR (mat x0 i) (vec x1 i) (mat x2)) * mat x0 i d := by
  have hz : val_main_v29 (F := Ideal) (ix2 a d) = 0 := by
    rw [val_main_v29_apply, val_main_cst_9_apply, Ideal.ofBits_def, Ideal.ofBits_zero_f32]
  have h30 : ∀ e : Fin 1000000, val_main_v30 (F := Ideal) x1 (ix2 e ⟨0, Nat.one_pos⟩) = x1 (ix1 e) := fun e => by
    rw [val_main_v30_apply]
    exact congrArg x1 (funext fun b => Fin.ext (by match b with | ⟨0, _⟩ => rfl))
  unfold val_main_v31
  rw [scatter_read, hz, zero_add]
  refine Finset.sum_congr (Finset.filter_congr fun e _ => ?_) (fun e _ => v28_at x0 x1 x2 hy e d)
  rw [h30 e]
  exact Iff.rfl

/-! ### The two results -/

/-- The gradient at `(a, d)`. -/
private theorem grad_at (hy : InRange (vec x1)) (a : Fin 10) (d : Fin 128) :
    val_main_v37 (F := Ideal) x0 x1 x2 (ix2 a d) = Rgrad (mat x0) (vec x1) (mat x2) a d := by
  rw [val_main_v37_apply, val_main_v34_apply, val_main_v32_apply, v31_at x0 x1 x2 hy, v25_at x0 x1 x2 hy,
    val_main_v33_apply, val_main_cst_10_apply, val_main_v36_apply, val_main_v35_apply, val_main_cst_11_apply]
  rfl

end

theorem ref_grad (x0 : FVec Ideal S1000000x128 .f32) (x1 : IVec S1000000 32) (x2 : FVec Ideal S10x128 .f32)
    (hy : Cert.Svm.InRange (Cert.Svm.vec x1)) :
    Cert.ReferenceIdeal.Read.val_main_v37 (F := Ideal) x0 x1 x2 = Cert.Svm.RgradArr x0 x1 x2 := by
  funext j
  obtain ⟨a, d, rfl⟩ : ∃ (a : Fin 10) (d : Fin 128), j = ix2 a d := ⟨j 0, j 1, eq_ix2 j⟩
  exact grad_at x0 x1 x2 hy a d

theorem ref_loss (x0 : FVec Ideal S1000000x128 .f32) (x1 : IVec S1000000 32) (x2 : FVec Ideal S10x128 .f32)
    (hy : Cert.Svm.InRange (Cert.Svm.vec x1)) :
    Cert.ReferenceIdeal.Read.val_main_v22 (F := Ideal) x0 x1 x2 = Cert.Svm.RlossArr x0 x1 x2 := by
  funext j
  rw [val_main_v22_apply, val_main_v18_apply, val_main_v17_apply, val_main_v21_apply, val_main_v20_apply,
    val_main_cst_4_apply, val_main_cst_5_apply, val_main_cst_6_apply, val_main_cst_7_apply,
    sum_idx2, sum_idx2]
  simp only [val_main_v16_apply, val_main_v19_apply, v15_at x0 x1 x2 hy, v7_at x0 x1 x2 hy, Ideal.mulf_def,
    Ideal.addf_def, Ideal.ofBits_def, Ideal.ofBits_zero_f32, zero_add]
  rfl

end Cert.ReferenceIdeal.RefValue

end
-- ==== Proof.KPieces.lean ====
/-
  What each control case of the kernel body leaves in the two carried accumulators and, at the last grid point, in the
  two output blocks, as the body's pure payload terms of the blocks it loaded; and the three input blocks of a grid
  point read off the argument arrays: tile `t` of the data is rows `4000 t … 4000 t + 3999`, the labels' column the
  same rows of the label vector, the weights' block the whole weight matrix.
-/
import proofs.«407127_j42941083025647_1_alg».proof.Proof.Gen.KernelIdeal.Frame
import proofs.«407127_j42941083025647_1_alg».proof.Proof.Spec
import Idealize.ShloMosaic.Lib.ValueIdx
import Idealize.ShloMosaic.Lib.Pipeline.Value

set_option maxRecDepth 16384

noncomputable section

namespace Cert.KernelIdeal.KPieces

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

/-! ## The pieces, case by case -/

/-- Every whole-buffer load and store of the body goes through the rectangle at offsets zero. -/
private theorem zero_offsets : (![0, 0] : Fin 2 → Nat) = fun _ => 0 := funext fun a => by fin_cases a <;> rfl

/-- First grid point: the gradient accumulator is reset to zeros and the tile's matrix added to it. -/
theorem sA0 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : cond0_0 i) (hc1 : ¬cond0_1 i)
    (x0 : Vec F S4000x128 .f32) (x1 : Vec F S4000x1 .i32) (x2 : Vec F S10x128 .f32) :
    sout0_A_0 c i arg1 harg1 arg2 harg2 arg3 harg3 arg4 harg4 arg5 harg5 arg6 harg6 arg7 harg7 hc0 hc1 x0 x1 x2 = k0_pay1 (k0_pay7 x0) (k0_pay11 x0 x1 x2) (k0_pay5 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S10x128) zero_offsets, View.readCov_unit_zero (S := S10x128) _ zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- First grid point: the loss accumulator is reset to zero and the tile's number added to it. -/
theorem sA1 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : cond0_0 i) (hc1 : ¬cond0_1 i)
    (x0 : Vec F S4000x128 .f32) (x1 : Vec F S4000x1 .i32) (x2 : Vec F S10x128 .f32) :
    sout0_A_1 c i arg1 harg1 arg2 harg2 arg3 harg3 arg4 harg4 arg5 harg5 arg6 harg6 arg7 harg7 hc0 hc1 x0 x1 x2 = k0_pay2 (k0_pay12 x0 x1 x2) (k0_pay6 (F := F)) := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S1x1) zero_offsets, View.readCov_unit_zero (S := S1x1) _ zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- A middle grid point: the tile's matrix is added to what the point before left. -/
theorem sB0 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : ¬cond0_1 i)
    (x0 : Vec F S4000x128 .f32) (x1 : Vec F S4000x1 .i32) (x2 : Vec F S10x128 .f32) (xs0 : Vec F S10x128 .f32) (xs1 : Vec F S1x1 .f32) :
    sout0_B_0 c i arg1 harg1 arg2 harg2 arg3 harg3 arg4 harg4 arg5 harg5 arg6 harg6 arg7 harg7 hc0 hc1 x0 x1 x2 xs0 xs1 = k0_pay1 (k0_pay7 x0) (k0_pay11 x0 x1 x2) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- A middle grid point: the tile's number is added to what the point before left. -/
theorem sB1 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : ¬cond0_1 i)
    (x0 : Vec F S4000x128 .f32) (x1 : Vec F S4000x1 .i32) (x2 : Vec F S10x128 .f32) (xs0 : Vec F S10x128 .f32) (xs1 : Vec F S1x1 .f32) :
    sout0_B_1 c i arg1 harg1 arg2 harg2 arg3 harg3 arg4 harg4 arg5 harg5 arg6 harg6 arg7 harg7 hc0 hc1 x0 x1 x2 xs0 xs1 = k0_pay2 (k0_pay12 x0 x1 x2) xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1)]
  unfold kernelRun0_B
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- The last grid point accumulates like a middle one. -/
theorem sC0 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : cond0_1 i)
    (x0 : Vec F S4000x128 .f32) (x1 : Vec F S4000x1 .i32) (x2 : Vec F S10x128 .f32) (xs0 : Vec F S10x128 .f32) (xs1 : Vec F S1x1 .f32) :
    sout0_C_0 c i arg1 harg1 arg2 harg2 arg3 harg3 arg4 harg4 arg5 harg5 arg6 harg6 arg7 harg7 hc0 hc1 x0 x1 x2 xs0 xs1 = k0_pay1 (k0_pay7 x0) (k0_pay11 x0 x1 x2) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- The last grid point accumulates like a middle one. -/
theorem sC1 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : cond0_1 i)
    (x0 : Vec F S4000x128 .f32) (x1 : Vec F S4000x1 .i32) (x2 : Vec F S10x128 .f32) (xs0 : Vec F S10x128 .f32) (xs1 : Vec F S1x1 .f32) :
    sout0_C_1 c i arg1 harg1 arg2 harg2 arg3 harg3 arg4 harg4 arg5 harg5 arg6 harg6 arg7 harg7 hc0 hc1 x0 x1 x2 xs0 xs1 = k0_pay2 (k0_pay12 x0 x1 x2) xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- The last grid point writes the gradient: the accumulated matrix scaled, plus the regulariser times the weights. -/
theorem oC3 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : cond0_1 i)
    (x0 : Vec F S4000x128 .f32) (x1 : Vec F S4000x1 .i32) (x2 : Vec F S10x128 .f32) (xs0 : Vec F S10x128 .f32) (xs1 : Vec F S1x1 .f32) :
    out0_C_3 c i arg1 harg1 arg2 harg2 arg3 harg3 arg4 harg4 arg5 harg5 arg6 harg6 arg7 harg7 hc0 hc1 x0 x1 x2 xs0 xs1 = k0_pay3 x2 (k0_pay1 (k0_pay7 x0) (k0_pay11 x0 x1 x2) xs0) := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-- The last grid point writes the loss: the accumulated number scaled, plus half the regulariser times the weights' squares summed. -/
theorem oC4 (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S10x128 .f32) (harg3 : arg3.IsWhole) (arg4 : Memref sig .tc .vmem S10x128 .f32) (harg4 : arg4.IsWhole) (arg5 : Memref sig .tc .vmem S1x1 .f32) (harg5 : arg5.IsWhole) (arg6 : Memref sig .tc .vmem S10x128 .f32) (harg6 : arg6.IsWhole) (arg7 : Memref sig .tc .vmem S1x1 .f32) (harg7 : arg7.IsWhole) (hc0 : ¬cond0_0 i) (hc1 : cond0_1 i)
    (x0 : Vec F S4000x128 .f32) (x1 : Vec F S4000x1 .i32) (x2 : Vec F S10x128 .f32) (xs0 : Vec F S10x128 .f32) (xs1 : Vec F S1x1 .f32) :
    out0_C_4 c i arg1 harg1 arg2 harg2 arg3 harg3 arg4 harg4 arg5 harg5 arg6 harg6 arg7 harg7 hc0 hc1 x0 x1 x2 xs0 xs1 = k0_pay4 x2 (k0_pay2 (k0_pay12 x0 x1 x2) xs1) := by
  unfold out0_C_4
  rw [View.read_writes_eq_canon _ _ _ (cover0_C_4 c i arg1 harg1 arg2 harg2 arg3 harg3 arg4 harg4 arg5 harg5 arg6 harg6 arg7 harg7 hc0 hc1 x0 x1 x2 xs0 xs1)]
  unfold kernelRun0_C
  dsimp only
  sl_unfold_words
  rw [View.canon_unit_zero zero_offsets]
  simp only [View.readAt_eq_ld, harg1.read_unread, harg2.read_unread, harg3.read_unread, harg6.read_unread, harg7.read_unread,
    View.ld_unit_zero (S := S4000x128) zero_offsets, View.ld_unit_zero (S := S4000x1) zero_offsets,
    View.ld_unit_zero (S := S10x128) zero_offsets, View.ld_unit_zero (S := S1x1) zero_offsets,
    View.readCov_unit_zero (S := S10x128) _ zero_offsets, View.readCov_unit_zero (S := S1x1) _ zero_offsets]

/-! ## The input blocks of a grid point -/

variable (m : (ℓ : Loc nD τ sig) → Buf (Elt F) ℓ)

/-- The block index maps over the grid: the data's and the labels' block at point `t` is block `(t, 0)`, the
    weights' block is always block `(0, 0)`. -/
private theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The labels' column as the grid finds it: the label vector re-laid row-major as a [1000000, 1] column. -/
private theorem labels_column (c : Dev nD) :
    (V m c main_v0 : Vec F S1000000x1 .i32)
      = shapeCast S1000000x1 (m ((c.tc : Thread nD τ).loc main_arg1) : Vec F S1000000 .i32) shapeCasts_S1000000_S1000000x1 := by
  show StableHlo.after hostOps0 (fun b => m (c, b)) (Proc.devRef .tc main_v0) = _
  after_results
  rfl

/-- Row `r` of the data block at grid point `t` is row `4000 t + r` of the data. -/
theorem blk0 (c : Dev nD) (t : Fin cfg0.N) (tt : Fin 250) (htt : t.val = tt.val) (r : Fin 4000) (d : Fin 128) :
    (iblk m c 0 t : Vec F S4000x128 .f32) (ix2 r d)
      = (m ((c.tc : Thread nD τ).loc main_arg0) : Vec F S1000000x128 .f32) (ix2 (Cert.Svm.row tt r) d) := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 4000 + 1 * r.val = 4000 * tt.val + r.val; rw [e0, htt]; omega
  | ⟨1, _⟩ => show win0_0.index t (1 : Fin 2) * 128 + 1 * d.val = d.val; rw [e1]; omega

/-- Row `r` of the label block at grid point `t` is entry `4000 t + r` of the label vector (the column the host
    reshape makes of it). -/
theorem blk1 (c : Dev nD) (t : Fin cfg0.N) (tt : Fin 250) (htt : t.val = tt.val) (r : Fin 4000) :
    (iblk m c 1 t : Vec F S4000x1 .i32) (ix2 r (0 : Fin 1))
      = (m ((c.tc : Thread nD τ).loc main_arg1) : Vec F S1000000 .i32) (ix1 (Cert.Svm.row tt r)) := by
  obtain ⟨-, -, e0, e1, -⟩ := block_indices t
  unfold iblk
  rw [View.read_apply]
  show V m c main_v0 _ = _
  rw [labels_column]
  have hj : ((cfg0.win 1).blk t).view.emb (ix2 r (0 : Fin 1)) = (ix2 (Cert.Svm.row tt r) (0 : Fin 1) : S1000000x1.Idx) := by
    funext a
    apply Fin.ext
    match a with
    | ⟨0, _⟩ => show win0_1.index t (0 : Fin 2) * 4000 + 1 * r.val = 4000 * tt.val + r.val; rw [e0, htt]; omega
    | ⟨1, _⟩ => show win0_1.index t (1 : Fin 2) * 1 + 1 * 0 = 0; rw [e1]
  rw [hj]
  refine shapeCast_apply _ _ _ (ix1 (Cert.Svm.row tt r)) ?_
  rw [Shape.rowMajor_val_one, Shape.rowMajor_val_two]
  show (Cert.Svm.row tt r).val = (Cert.Svm.row tt r).val * 1 + 0
  omega

/-- The weights' block at every grid point is the whole weight matrix. -/
theorem blk2 (c : Dev nD) (t : Fin cfg0.N) :
    (iblk m c 2 t : Vec F S10x128 .f32) = (m ((c.tc : Thread nD τ).loc main_arg2) : Vec F S10x128 .f32) := by
  obtain ⟨-, -, -, -, e0, e1⟩ := block_indices t
  funext j
  unfold iblk
  rw [View.read_apply]
  show V m c main_arg2 _ = _
  rw [V_main_arg2]
  congr 1
  funext a
  apply Fin.ext
  match a with
  | ⟨0, _⟩ => show win0_2.index t (0 : Fin 2) * 10 + 1 * (j 0).val = (j 0).val; rw [e0]; omega
  | ⟨1, _⟩ => show win0_2.index t (1 : Fin 2) * 128 + 1 * (j 1).val = (j 1).val; rw [e1]; omega

end Cert.KernelIdeal.KPieces

end
-- ==== Proof.KPayload.lean ====
/-
  The kernel body's arithmetic at the extended reals, read at an index, over one grid point's blocks: a data block
  `x0 : [4000, 128]`, its label column `x1 : [4000, 1]`, the weights `x2 : [10, 128]`. Row `r` of the block has
  the data `d ↦ x0 (r, d)` and the label word `x1 (r, 0)`; the body forms, per row, the scores, the score of the
  row's own class as one-hot times scores summed, the margins, the mask of violating classes and their count, and from
  these the tile's [10, 128] matrix (a matrix product contracting the rows) and the tile's number.
-/
import proofs.«407127_j42941083025647_1_alg».proof.Proof.Gen.KernelIdeal.Skeleton
import proofs.«407127_j42941083025647_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPayload

open Cert.KernelIdeal Cert.KernelIdeal.Gen Idealize.ShloMosaic Idealize.ShloMosaic.ValueIdx

/-! ## Two layout operations of a column, read at an index -/
section Layout
variable {α : Type}

private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The two matrix products at an index -/

section Dots

private theorem lhsA_0 (i : S4000x10.Idx) (q : dot_S4000x128_S10x128_S4000x10_1_1_0_0_n_n.contr.Idx) :
    (dot_S4000x128_S10x128_S4000x10_1_1_0_0_n_n.lhsIdx i q 0).val = (i 0).val := by
  unfold DotDims.lhsIdx
  rw [dif_neg (show ¬(0 : Fin S4000x128.rank) ∈ dot_S4000x128_S10x128_S4000x10_1_1_0_0_n_n.lhsBatch by decide), dif_pos (show (0 : Fin S4000x128.rank) ∈ dot_S4000x128_S10x128_S4000x10_1_1_0_0_n_n.lhsNonContracting by decide)]
  rfl
private theorem lhsA_1 (i : S4000x10.Idx) (q : dot_S4000x128_S10x128_S4000x10_1_1_0_0_n_n.contr.Idx) :
    (dot_S4000x128_S10x128_S4000x10_1_1_0_0_n_n.lhsIdx i q 1).val = (q ⟨0, by decide⟩).val :=
  dot_S4000x128_S10x128_S4000x10_1_1_0_0_n_n.lhsIdx_val_of_single rfl i q
private theorem rhsA_0 (i : S4000x10.Idx) (q : dot_S4000x128_S10x128_S4000x10_1_1_0_0_n_n.contr.Idx) :
    (dot_S4000x128_S10x128_S4000x10_1_1_0_0_n_n.rhsIdx i q 0).val = (i 1).val := by
  unfold DotDims.rhsIdx
  rw [dif_neg (show ¬(0 : Fin S10x128.rank) ∈ dot_S4000x128_S10x128_S4000x10_1_1_0_0_n_n.rhsBatch by decide), dif_pos (show (0 : Fin S10x128.rank) ∈ dot_S4000x128_S10x128_S4000x10_1_1_0_0_n_n.rhsNonContracting by decide)]
  rfl
private theorem rhsA_1 (i : S4000x10.Idx) (q : dot_S4000x128_S10x128_S4000x10_1_1_0_0_n_n.contr.Idx) :
    (dot_S4000x128_S10x128_S4000x10_1_1_0_0_n_n.rhsIdx i q 1).val = (q ⟨0, by decide⟩).val :=
  dot_S4000x128_S10x128_S4000x10_1_1_0_0_n_n.rhsIdx_val_of_single rfl i q

/-- The product contracting the last axis of both operands: element (r, c) is the sum over d of lhs (r, d) * rhs (c, d). -/
private theorem matmulA_apply (lhs : FVec Ideal S4000x128 .bf16) (rhs : FVec Ideal S10x128 .bf16) (r : Fin 4000) (c : Fin 10) :
    matmul dot_S4000x128_S10x128_S4000x10_1_1_0_0_n_n none lhs rhs (constant (F := Ideal) S4000x10 .f32 0x00000000#32) (ix2 r c)
      = ∑ d : Fin 128, lhs (ix2 r d) * rhs (ix2 c d) := by
  simp only [matmul]
  rw [Ideal.matmul_constant_zero_apply, ← Equiv.sum_comp (ValueIdx.contrEquiv1 dot_S4000x128_S10x128_S4000x10_1_1_0_0_n_n 128 rfl rfl).symm]
  refine Finset.sum_congr rfl fun k _ => ?_
  have hk := ValueIdx.contrEquiv1_symm_val dot_S4000x128_S10x128_S4000x10_1_1_0_0_n_n 128 rfl rfl k
  have el : dot_S4000x128_S10x128_S4000x10_1_1_0_0_n_n.lhsIdx (ix2 r c) ((ValueIdx.contrEquiv1 dot_S4000x128_S10x128_S4000x10_1_1_0_0_n_n 128 rfl rfl).symm k) = ix2 r k := funext fun a => Fin.ext (by
    match a with
    | ⟨0, _⟩ => exact lhsA_0 _ _
    | ⟨1, _⟩ => exact (lhsA_1 _ _).trans hk)
  have er : dot_S4000x128_S10x128_S4000x10_1_1_0_0_n_n.rhsIdx (ix2 r c) ((ValueIdx.contrEquiv1 dot_S4000x128_S10x128_S4000x10_1_1_0_0_n_n 128 rfl rfl).symm k) = ix2 c k := funext fun a => Fin.ext (by
    match a with
    | ⟨0, _⟩ => exact rhsA_0 _ _
    | ⟨1, _⟩ => exact (rhsA_1 _ _).trans hk)
  rw [el, er]

private theorem lhsB_0 (i : S10x128.Idx) (q : dot_S4000x10_S4000x128_S10x128_0_0_1_1_n_n.contr.Idx) :
    (dot_S4000x10_S4000x128_S10x128_0_0_1_1_n_n.lhsIdx i q 0).val = (q ⟨0, by decide⟩).val :=
  dot_S4000x10_S4000x128_S10x128_0_0_1_1_n_n.lhsIdx_val_of_single rfl i q
private theorem lhsB_1 (i : S10x128.Idx) (q : dot_S4000x10_S4000x128_S10x128_0_0_1_1_n_n.contr.Idx) :
    (dot_S4000x10_S4000x128_S10x128_0_0_1_1_n_n.lhsIdx i q 1).val = (i 0).val := by
  unfold DotDims.lhsIdx
  rw [dif_neg (show ¬(1 : Fin S4000x10.rank) ∈ dot_S4000x10_S4000x128_S10x128_0_0_1_1_n_n.lhsBatch by decide), dif_pos (show (1 : Fin S4000x10.rank) ∈ dot_S4000x10_S4000x128_S10x128_0_0_1_1_n_n.lhsNonContracting by decide)]
  rfl
private theorem rhsB_0 (i : S10x128.Idx) (q : dot_S4000x10_S4000x128_S10x128_0_0_1_1_n_n.contr.Idx) :
    (dot_S4000x10_S4000x128_S10x128_0_0_1_1_n_n.rhsIdx i q 0).val = (q ⟨0, by decide⟩).val :=
  dot_S4000x10_S4000x128_S10x128_0_0_1_1_n_n.rhsIdx_val_of_single rfl i q
private theorem rhsB_1 (i : S10x128.Idx) (q : dot_S4000x10_S4000x128_S10x128_0_0_1_1_n_n.contr.Idx) :
    (dot_S4000x10_S4000x128_S10x128_0_0_1_1_n_n.rhsIdx i q 1).val = (i 1).val := by
  unfold DotDims.rhsIdx
  rw [dif_neg (show ¬(1 : Fin S4000x128.rank) ∈ dot_S4000x10_S4000x128_S10x128_0_0_1_1_n_n.rhsBatch by decide), dif_pos (show (1 : Fin S4000x128.rank) ∈ dot_S4000x10_S4000x128_S10x128_0_0_1_1_n_n.rhsNonContracting by decide)]
  rfl

/-- The product contracting the first axis of both operands: element (c, d) is the sum over r of lhs (r, c) * rhs (r, d). -/
private theorem matmulB_apply (lhs : FVec Ideal S4000x10 .bf16) (rhs : FVec Ideal S4000x128 .bf16) (c : Fin 10) (d : Fin 128) :
    matmul dot_S4000x10_S4000x128_S10x128_0_0_1_1_n_n none lhs rhs (constant (F := Ideal) S10x128 .f32 0x00000000#32) (ix2 c d)
      = ∑ r : Fin 4000, lhs (ix2 r c) * rhs (ix2 r d) := by
  simp only [matmul]
  rw [Ideal.matmul_constant_zero_apply, ← Equiv.sum_comp (ValueIdx.contrEquiv1 dot_S4000x10_S4000x128_S10x128_0_0_1_1_n_n 4000 rfl rfl).symm]
  refine Finset.sum_congr rfl fun k _ => ?_
  have hk := ValueIdx.contrEquiv1_symm_val dot_S4000x10_S4000x128_S10x128_0_0_1_1_n_n 4000 rfl rfl k
  have el : dot_S4000x10_S4000x128_S10x128_0_0_1_1_n_n.lhsIdx (ix2 c d) ((ValueIdx.contrEquiv1 dot_S4000x10_S4000x128_S10x128_0_0_1_1_n_n 4000 rfl rfl).symm k) = ix2 k c := funext fun a => Fin.ext (by
    match a with
    | ⟨0, _⟩ => exact (lhsB_0 _ _).trans hk
    | ⟨1, _⟩ => exact lhsB_1 _ _)
  have er : dot_S4000x10_S4000x128_S10x128_0_0_1_1_n_n.rhsIdx (ix2 c d) ((ValueIdx.contrEquiv1 dot_S4000x10_S4000x128_S10x128_0_0_1_1_n_n 4000 rfl rfl).symm k) = ix2 k d := funext fun a => Fin.ext (by
    match a with
    | ⟨0, _⟩ => exact (rhsB_0 _ _).trans hk
    | ⟨1, _⟩ => exact rhsB_1 _ _)
  rw [el, er]

end Dots

variable (x0 : Vec Ideal S4000x128 .f32) (x1 : Vec Ideal S4000x1 .i32) (x2 : Vec Ideal S10x128 .f32)

/-- Row `r` of the data block, its label word, and the score of its own class as the body computes it. -/
def xrow (r : Fin 4000) : Fin 128 → EReal := fun d => x0 (ix2 r d)
def ylab (r : Fin 4000) : BitVec 32 := x1 (ix2 r (0 : Fin 1))
def corrB (r : Fin 4000) : EReal := Cert.Svm.corrK (xrow x0 r) (ylab x1 r) (Cert.Svm.mat x2)

/-! ### The one-hot rows -/

/-- The word an equality test of two 32-bit words widens and converts to: `1` when they are equal, `0` otherwise. -/
private theorem onehot_word (a y : BitVec 32) :
    ((((IntOp.cmpi .eq a y).setWidth 32).toInt : ℝ) : EReal) = if y = a then 1 else 0 := by
  show ((((BitVec.ofBool (a == y)).setWidth 32).toInt : ℝ) : EReal) = _
  by_cases h : y = a
  · subst h
    rw [if_pos rfl, beq_self_eq_true]
    show (((1 : ℤ) : ℝ) : EReal) = 1
    rw [Int.cast_one, EReal.coe_one]
  · rw [if_neg h, beq_eq_false_iff_ne.mpr (Ne.symm h)]
    show (((0 : ℤ) : ℝ) : EReal) = 0
    rw [Int.cast_zero, EReal.coe_zero]

/-- The lane number along the class axis. -/
private theorem iota_apply (r : Fin 4000) (c : Fin 10) :
    iota .tc S4000x10 32 [1] iota_S4000x10_d1_w32 (ix2 r c) = BitVec.ofNat 32 c.val := by
  show BitVec.ofNat 32 (0 * 10 + c.val) = _
  rw [Nat.zero_mul, Nat.zero_add]

private theorem pay8_apply (r : Fin 4000) (c : Fin 10) :
    k0_pay8 (F := Ideal) x1 (ix2 r c) = Cert.Svm.hotv (ylab x1 r) c := by
  have e2 : broadcastTo S4000x10 (shapeCast S4000x1 x1 shapeCasts_S4000x1_S4000x1) broadcasts_S4000x1_S4000x10 (ix2 r c) = ylab x1 r := by
    rw [shapeCast_self]; exact broadcastTo_a1_ab_apply _ _ r c
  unfold k0_pay8
  show ((((IntOp.cmpi .eq (iota .tc S4000x10 32 [1] iota_S4000x10_d1_w32 (ix2 r c))
      (broadcastTo S4000x10 (shapeCast S4000x1 x1 shapeCasts_S4000x1_S4000x1) broadcasts_S4000x1_S4000x10 (ix2 r c))).setWidth 32).toInt : ℝ) : EReal) = _
  rw [iota_apply, e2]
  exact onehot_word _ _

/-! ### The scores, the own-class score, the margins -/

/-- The block's scores: the product of the data block with the weights, contracting the feature axis. -/
private def scores : FVec Ideal S4000x10 .f32 :=
  matmul dot_S4000x128_S10x128_S4000x10_1_1_0_0_n_n none (k0_pay7 (F := Ideal) x0) (truncf .bf16 x2 bitsLt_bf16_f32)
    (constant (F := Ideal) S4000x10 .f32 0x00000000#32)

private theorem scores_apply (r : Fin 4000) (c : Fin 10) :
    scores x0 x2 (ix2 r c) = Cert.Svm.scoreRow (xrow x0 r) (Cert.Svm.mat x2) c := by
  unfold scores
  refine (matmulA_apply _ _ r c).trans ?_
  rfl

/-- A sum along the last axis of an [a, b] block, read at row `r`: the sum over that row. -/
private theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r)
      = ∑ k : Fin b, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

private theorem corr_apply (hφ : FKind.Formats .f32) (hacc : (0x00000000#32 : BitVec 32) = FKind.add.neutral .f32 hφ) (r : Fin 4000) :
    multiReduction (F := Ideal) .add [1] S4000 (mulf (k0_pay8 (F := Ideal) x1) (scores x0 x2)) 0x00000000#32
        reduces_S4000x10_S4000 hφ hacc (ix1 r) = corrB x0 x1 x2 r := by
  refine (rowsum_apply _ reduces_S4000x10_S4000 hφ hacc r).trans ?_
  unfold corrB Cert.Svm.corrK
  refine Finset.sum_congr rfl fun k _ => ?_
  rw [mulf_apply, pay8_apply, scores_apply]

private theorem pay9_apply (r : Fin 4000) (c : Fin 10) :
    k0_pay9 (F := Ideal) x0 x1 x2 (ix2 r c)
      = Cert.Svm.margOf (xrow x0 r) (Cert.Svm.mat x2) (corrB x0 x1 x2 r) c := by
  unfold k0_pay9
  show (scores x0 x2 (ix2 r c)
      - broadcastTo S4000x10 (shapeCast S4000x1 (multiReduction (F := Ideal) .add [1] S4000
          (mulf (k0_pay8 (F := Ideal) x1) (scores x0 x2)) 0x00000000#32 reduces_S4000x10_S4000 (.inl rfl) rfl)
          shapeCasts_S4000_S4000x1) broadcasts_S4000x1_S4000x10 (ix2 r c)) + Cert.Svm.one = _
  rw [broadcastTo_a1_ab_apply, shapeCast_a_a1_apply, corr_apply x0 x1 x2 (.inl rfl) rfl r, scores_apply]
  rfl

/-! ### The mask, its count, the tile's two results -/

private theorem pay10_apply (r : Fin 4000) (c : Fin 10) :
    k0_pay10 (F := Ideal) x0 x1 x2 (ix2 r c)
      = Cert.Svm.maskOf (xrow x0 r) (ylab x1 r) (Cert.Svm.mat x2) (corrB x0 x1 x2 r) c := by
  unfold k0_pay10
  show Cert.Svm.viol (k0_pay9 (F := Ideal) x0 x1 x2 (ix2 r c)) (k0_pay8 (F := Ideal) x1 (ix2 r c)) = _
  rw [pay9_apply, pay8_apply]
  rfl

private theorem count_apply (hφ : FKind.Formats .f32) (hacc : (0x00000000#32 : BitVec 32) = FKind.add.neutral .f32 hφ) (r : Fin 4000) :
    multiReduction (F := Ideal) .add [1] S4000 (k0_pay10 (F := Ideal) x0 x1 x2) 0x00000000#32
        reduces_S4000x10_S4000 hφ hacc (ix1 r)
      = Cert.Svm.cntOf (xrow x0 r) (ylab x1 r) (Cert.Svm.mat x2) (corrB x0 x1 x2 r) := by
  refine (rowsum_apply _ reduces_S4000x10_S4000 hφ hacc r).trans ?_
  unfold Cert.Svm.cntOf
  exact Finset.sum_congr rfl fun k _ => pay10_apply x0 x1 x2 r k

private theorem pay11_apply (r : Fin 4000) (c : Fin 10) :
    k0_pay11 (F := Ideal) x0 x1 x2 (ix2 r c)
      = Cert.Svm.combOf (xrow x0 r) (ylab x1 r) (Cert.Svm.mat x2) (corrB x0 x1 x2 r) c := by
  unfold k0_pay11
  show k0_pay8 (F := Ideal) x1 (ix2 r c)
      * broadcastTo S4000x10 (shapeCast S4000x1 (multiReduction (F := Ideal) .add [1] S4000
          (k0_pay10 (F := Ideal) x0 x1 x2) 0x00000000#32 reduces_S4000x10_S4000 (.inl rfl) rfl)
          shapeCasts_S4000_S4000x1) broadcasts_S4000x1_S4000x10 (ix2 r c)
      - k0_pay10 (F := Ideal) x0 x1 x2 (ix2 r c) = _
  rw [broadcastTo_a1_ab_apply, shapeCast_a_a1_apply, count_apply x0 x1 x2 (.inl rfl) rfl r, pay8_apply, pay10_apply]
  rfl

/-- A sum along the first axis of an [a, 1] column into [1]: the sum of the column. -/
private theorem colsum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (j : (⟨1, ![1]⟩ : Shape).Idx) :
    multiReduction (F := Ideal) .add [0] ⟨1, ![1]⟩ src 0x00000000#32 h hφ hacc j
      = ∑ r : Fin a, src (ix2 r (0 : Fin 1)) := by
  refine (Ideal.multiReduction_add_single src 0x00000000#32 h hφ hacc j).trans ?_
  refine Finset.sum_congr rfl fun k _ => congrArg src ?_
  funext a
  match a with
  | ⟨0, _⟩ => rfl
  | ⟨1, _⟩ => exact Fin.ext (Nat.lt_one_iff.mp (Fin.isLt _))

private theorem pay12_apply (j : S1x1.Idx) :
    k0_pay12 (F := Ideal) x0 x1 x2 j
      = ∑ r : Fin 4000, Cert.Svm.lossOf (xrow x0 r) (ylab x1 r) (Cert.Svm.mat x2) (corrB x0 x1 x2 r) := by
  obtain ⟨u, v, rfl⟩ : ∃ (u : Fin 1) (v : Fin 1), j = ix2 u v := ⟨j 0, j 1, eq_ix2 j⟩
  unfold k0_pay12
  show shapeCast S1x1 (multiReduction (F := Ideal) .add [0] S1 (shapeCast S4000x1 (multiReduction (F := Ideal) .add [1] S4000
      (mulf (k0_pay10 (F := Ideal) x0 x1 x2) (k0_pay9 (F := Ideal) x0 x1 x2)) 0x00000000#32 reduces_S4000x10_S4000 (.inl rfl) rfl)
      shapeCasts_S4000_S4000x1) 0x00000000#32 reduces_S4000x1_S1 (.inl rfl) rfl) shapeCasts_S1_S1x1 (ix2 u v) = _
  refine (shapeCast_a_1a_apply _ shapeCasts_S1_S1x1 u v).trans ?_
  refine (colsum_apply _ reduces_S4000x1_S1 (.inl rfl) rfl _).trans ?_
  refine Finset.sum_congr rfl fun r _ => ?_
  refine (shapeCast_a_a1_apply _ shapeCasts_S4000_S4000x1 r 0).trans ?_
  refine (rowsum_apply _ reduces_S4000x10_S4000 (.inl rfl) rfl r).trans ?_
  unfold Cert.Svm.lossOf
  refine Finset.sum_congr rfl fun k _ => ?_
  rw [mulf_apply, pay10_apply, pay9_apply]

/-! ### The six stored values -/

/-- The gradient accumulator after the point: what it held plus the tile's matrix. -/
theorem pay1_apply (a0 : Vec Ideal S10x128 .f32) (c : Fin 10) (d : Fin 128) :
    k0_pay1 (F := Ideal) (k0_pay7 x0) (k0_pay11 x0 x1 x2) a0 (ix2 c d)
      = a0 (ix2 c d) + ∑ r : Fin 4000,
          Cert.Svm.combOf (xrow x0 r) (ylab x1 r) (Cert.Svm.mat x2) (corrB x0 x1 x2 r) c * x0 (ix2 r d) := by
  unfold k0_pay1
  show shapeCast S10x128 (addf a0 (matmul dot_S4000x10_S4000x128_S10x128_0_0_1_1_n_n none
      (truncf .bf16 (k0_pay11 (F := Ideal) x0 x1 x2) bitsLt_bf16_f32) (k0_pay7 (F := Ideal) x0)
      (constant (F := Ideal) S10x128 .f32 0x00000000#32))) shapeCasts_S10x128_S10x128 (ix2 c d) = _
  rw [shapeCast_self]
  refine congrArg (a0 (ix2 c d) + ·) ?_
  refine (matmulB_apply _ _ c d).trans ?_
  refine Finset.sum_congr rfl fun r _ => ?_
  show k0_pay11 (F := Ideal) x0 x1 x2 (ix2 r c) * x0 (ix2 r d) = _
  rw [pay11_apply]

/-- The loss accumulator after the point: what it held plus the tile's number. -/
theorem pay2_apply (a1 : Vec Ideal S1x1 .f32) (j : S1x1.Idx) :
    k0_pay2 (F := Ideal) (k0_pay12 x0 x1 x2) a1 j
      = a1 j + ∑ r : Fin 4000, Cert.Svm.lossOf (xrow x0 r) (ylab x1 r) (Cert.Svm.mat x2) (corrB x0 x1 x2 r) := by
  unfold k0_pay2
  show shapeCast S1x1 (addf a1 (k0_pay12 (F := Ideal) x0 x1 x2)) shapeCasts_S1x1_S1x1 j = _
  rw [shapeCast_self]
  exact congrArg (a1 j + ·) (pay12_apply x0 x1 x2 j)

/-- The gradient written at the last point. -/
theorem pay3_apply (a0 : Vec Ideal S10x128 .f32) (c : Fin 10) (d : Fin 128) :
    k0_pay3 (F := Ideal) x2 a0 (ix2 c d) = a0 (ix2 c d) * Cert.Svm.invN + Cert.Svm.reg * x2 (ix2 c d) := by
  unfold k0_pay3
  rfl

/-- The loss written at the last point. -/
theorem pay4_apply (a1 : Vec Ideal S1x1 .f32) (j : S1x1.Idx) :
    k0_pay4 (F := Ideal) x2 a1 j = a1 j * Cert.Svm.invN + Cert.Svm.halfReg * Cert.Svm.wsq (Cert.Svm.mat x2) := by
  obtain ⟨u, v, rfl⟩ : ∃ (u : Fin 1) (v : Fin 1), j = ix2 u v := ⟨j 0, j 1, eq_ix2 j⟩
  unfold k0_pay4
  show a1 (ix2 u v) * Cert.Svm.invN + Cert.Svm.halfReg * shapeCast S1x1 (multiReduction (F := Ideal) .add [0] S1
      (shapeCast S10x1 (multiReduction (F := Ideal) .add [1] S10 (mulf x2 x2) 0x00000000#32 reduces_S10x128_S10 (.inl rfl) rfl)
        shapeCasts_S10_S10x1) 0x00000000#32 reduces_S10x1_S1 (.inl rfl) rfl) shapeCasts_S1_S1x1 (ix2 u v) = _
  refine congrArg (a1 (ix2 u v) * Cert.Svm.invN + Cert.Svm.halfReg * ·) ?_
  refine (shapeCast_a_1a_apply _ shapeCasts_S1_S1x1 u v).trans ?_
  refine (colsum_apply _ reduces_S10x1_S1 (.inl rfl) rfl _).trans ?_
  unfold Cert.Svm.wsq
  refine Finset.sum_congr rfl fun c _ => ?_
  refine (shapeCast_a_a1_apply _ shapeCasts_S10_S10x1 c 0).trans ?_
  exact rowsum_apply _ reduces_S10x128_S10 (.inl rfl) rfl c

/-- The two resets are zero everywhere. -/
theorem pay5_apply (j : S10x128.Idx) : k0_pay5 (F := Ideal) j = 0 := by
  unfold k0_pay5
  show shapeCast S10x128 (broadcast S10x128 (Ideal.ofBits .f32 0x00000000#32)) shapeCasts_S10x128_S10x128 j = _
  rw [shapeCast_self]
  exact Ideal.ofBits_zero_f32

theorem pay6_apply (j : S1x1.Idx) : k0_pay6 (F := Ideal) j = 0 := by
  unfold k0_pay6
  show shapeCast S1x1 (broadcast S1x1 (Ideal.ofBits .f32 0x00000000#32)) shapeCasts_S1x1_S1x1 j = _
  rw [shapeCast_self]
  exact Ideal.ofBits_zero_f32

end Cert.KernelIdeal.KPayload

end
-- ==== Proof.KRun.lean ====
/-
  The kernel's two result arrays, read off its run point by point.

  The grid has 250 points; point `t` sees rows `4000 t … 4000 t + 3999` of the data and of the labels and the whole
  weight matrix. Two accumulators are carried from point to point: after point `n` the first holds the sum over the
  tiles `0 … n` of the tiles' [10, 128] matrices and the second the sum of the tiles' numbers (by induction on the
  point: the first point resets both to zero and adds its tile, every later point adds its tile to what the point
  before left). The last point writes the gradient `acc * (1/N) + reg * w` and the loss
  `acc * (1/N) + (reg/2) * ∑ w²` into the two output blocks, each of which is its whole array and is written back
  once, after the last point; the host then reshapes the [1, 1] loss to a scalar.
-/
import proofs.«407127_j42941083025647_1_alg».proof.Proof.Gen.KernelIdeal.Frame
import proofs.«407127_j42941083025647_1_alg».proof.Proof.KPieces
import proofs.«407127_j42941083025647_1_alg».proof.Proof.KPayload
import proofs.«407127_j42941083025647_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Names for the arrays and for a point's blocks, at their literal types -/

abbrev Xa (c : Dev nD) : (⟨2, ![1000000, 128]⟩ : Shape).Idx → EReal := m ((c.tc : Thread nD τ).loc main_arg0)
abbrev ya (c : Dev nD) : (⟨1, ![1000000]⟩ : Shape).Idx → BitVec 32 := m ((c.tc : Thread nD τ).loc main_arg1)
abbrev wa (c : Dev nD) : (⟨2, ![10, 128]⟩ : Shape).Idx → EReal := m ((c.tc : Thread nD τ).loc main_arg2)

abbrev b0 (c : Dev nD) (t : Fin cfg0.N) : Vec Ideal S4000x128 .f32 := iblk m c 0 t
abbrev b1 (c : Dev nD) (t : Fin cfg0.N) : Vec Ideal S4000x1 .i32 := iblk m c 1 t
abbrev b2 (c : Dev nD) (t : Fin cfg0.N) : Vec Ideal S10x128 .f32 := iblk m c 2 t

theorem hN : cfg0.N = 250 := N_0

/-- Tile `s`'s matrix and number, for a natural number `s` (zero past the grid). -/
def tg (c : Dev nD) (s : ℕ) (a : Fin 10) (d : Fin 128) : EReal :=
  if h : s < 250 then Cert.Svm.tileGrad (Cert.Svm.mat (Xa m c)) (Cert.Svm.vec (ya m c)) (Cert.Svm.mat (wa m c)) ⟨s, h⟩ a d else 0
def tl (c : Dev nD) (s : ℕ) : EReal :=
  if h : s < 250 then Cert.Svm.tileLoss (Cert.Svm.mat (Xa m c)) (Cert.Svm.vec (ya m c)) (Cert.Svm.mat (wa m c)) ⟨s, h⟩ else 0

/-- The accumulators after point `n`: the tiles `0 … n` summed. -/
def accG (c : Dev nD) (n : ℕ) : Vec Ideal S10x128 .f32 := fun j => ∑ s ∈ Finset.range (n + 1), tg m c s (j 0) (j 1)
def accL (c : Dev nD) (n : ℕ) : Vec Ideal S1x1 .f32 := fun _ => ∑ s ∈ Finset.range (n + 1), tl m c s

/-! ## One point's tile, from its blocks -/

theorem row_x (c : Dev nD) (t : Fin cfg0.N) (ht : t.val < 250) (r : Fin 4000) :
    KPayload.xrow (b0 m c t) r = Cert.Svm.mat (Xa m c) (Cert.Svm.row ⟨t.val, ht⟩ r) :=
  funext fun d => KPieces.blk0 m c t ⟨t.val, ht⟩ rfl r d

theorem row_y (c : Dev nD) (t : Fin cfg0.N) (ht : t.val < 250) (r : Fin 4000) :
    KPayload.ylab (b1 m c t) r = Cert.Svm.vec (ya m c) (Cert.Svm.row ⟨t.val, ht⟩ r) :=
  KPieces.blk1 m c t ⟨t.val, ht⟩ rfl r

theorem blk_w (c : Dev nD) (t : Fin cfg0.N) : b2 m c t = wa m c := KPieces.blk2 m c t

theorem tile_grad (c : Dev nD) (t : Fin cfg0.N) (a : Fin 10) (d : Fin 128) :
    (∑ r : Fin 4000, Cert.Svm.combOf (KPayload.xrow (b0 m c t) r) (KPayload.ylab (b1 m c t) r) (Cert.Svm.mat (b2 m c t))
        (KPayload.corrB (b0 m c t) (b1 m c t) (b2 m c t) r) a * (b0 m c t) (ix2 r d)) = tg m c t.val a d := by
  have ht : t.val < 250 := lt_of_lt_of_eq t.isLt hN
  unfold tg
  rw [dif_pos ht]
  unfold Cert.Svm.tileGrad
  refine Finset.sum_congr rfl fun r _ => ?_
  unfold KPayload.corrB
  rw [row_x m c t ht r, row_y m c t ht r, blk_w m c t]
  exact congrArg _ (KPieces.blk0 m c t ⟨t.val, ht⟩ rfl r d)

theorem tile_loss (c : Dev nD) (t : Fin cfg0.N) :
    (∑ r : Fin 4000, Cert.Svm.lossOf (KPayload.xrow (b0 m c t) r) (KPayload.ylab (b1 m c t) r) (Cert.Svm.mat (b2 m c t))
        (KPayload.corrB (b0 m c t) (b1 m c t) (b2 m c t) r)) = tl m c t.val := by
  have ht : t.val < 250 := lt_of_lt_of_eq t.isLt hN
  unfold tl
  rw [dif_pos ht]
  unfold Cert.Svm.tileLoss
  refine Finset.sum_congr rfl fun r _ => ?_
  unfold KPayload.corrB
  rw [row_x m c t ht r, row_y m c t ht r, blk_w m c t]

/-! ## What the accumulators hold after a point, case by case, as payload terms -/

theorem stepA0 (c : Dev nD) (t : Fin cfg0.N) (h0 : t.val % 250 = 0) (h1 : ¬t.val % 250 = 249) :
    (outsAt0 m c t.val t.isLt).2.2.1 = k0_pay1 (k0_pay7 (b0 m c t)) (k0_pay11 (b0 m c t) (b1 m c t) (b2 m c t)) (k0_pay5 (F := Ideal)) := by
  rw [outsAt0_A m c t h0 h1]; dsimp only
  exact KPieces.sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem stepA1 (c : Dev nD) (t : Fin cfg0.N) (h0 : t.val % 250 = 0) (h1 : ¬t.val % 250 = 249) :
    (outsAt0 m c t.val t.isLt).2.2.2 = k0_pay2 (k0_pay12 (b0 m c t) (b1 m c t) (b2 m c t)) (k0_pay6 (F := Ideal)) := by
  rw [outsAt0_A m c t h0 h1]; dsimp only
  exact KPieces.sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

theorem stepB0 (c : Dev nD) (t : Fin cfg0.N) (h0 : ¬t.val % 250 = 0) (h1 : ¬t.val % 250 = 249) :
    (outsAt0 m c t.val t.isLt).2.2.1 = k0_pay1 (k0_pay7 (b0 m c t)) (k0_pay11 (b0 m c t) (b1 m c t) (b2 m c t)) (outsAt0 m c (t.val - 1) (Nat.lt_of_le_of_lt (Nat.sub_le _ _) t.isLt)).2.2.1 := by
  rw [outsAt0_B m c t h0 h1]; dsimp only
  exact KPieces.sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _

theorem stepB1 (c : Dev nD) (t : Fin cfg0.N) (h0 : ¬t.val % 250 = 0) (h1 : ¬t.val % 250 = 249) :
    (outsAt0 m c t.val t.isLt).2.2.2 = k0_pay2 (k0_pay12 (b0 m c t) (b1 m c t) (b2 m c t)) (outsAt0 m c (t.val - 1) (Nat.lt_of_le_of_lt (Nat.sub_le _ _) t.isLt)).2.2.2 := by
  rw [outsAt0_B m c t h0 h1]; dsimp only
  exact KPieces.sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) _ _

theorem stepC0 (c : Dev nD) (t : Fin cfg0.N) (h0 : ¬t.val % 250 = 0) (h1 : t.val % 250 = 249) :
    (outsAt0 m c t.val t.isLt).2.2.1 = k0_pay1 (k0_pay7 (b0 m c t)) (k0_pay11 (b0 m c t) (b1 m c t) (b2 m c t)) (outsAt0 m c (t.val - 1) (Nat.lt_of_le_of_lt (Nat.sub_le _ _) t.isLt)).2.2.1 := by
  rw [outsAt0_C m c t h0 h1]; dsimp only
  exact KPieces.sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

theorem stepC1 (c : Dev nD) (t : Fin cfg0.N) (h0 : ¬t.val % 250 = 0) (h1 : t.val % 250 = 249) :
    (outsAt0 m c t.val t.isLt).2.2.2 = k0_pay2 (k0_pay12 (b0 m c t) (b1 m c t) (b2 m c t)) (outsAt0 m c (t.val - 1) (Nat.lt_of_le_of_lt (Nat.sub_le _ _) t.isLt)).2.2.2 := by
  rw [outsAt0_C m c t h0 h1]; dsimp only
  exact KPieces.sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

theorem stepC3 (c : Dev nD) (t : Fin cfg0.N) (h0 : ¬t.val % 250 = 0) (h1 : t.val % 250 = 249) :
    (outsAt0 m c t.val t.isLt).1 = k0_pay3 (b2 m c t) (k0_pay1 (k0_pay7 (b0 m c t)) (k0_pay11 (b0 m c t) (b1 m c t) (b2 m c t)) (outsAt0 m c (t.val - 1) (Nat.lt_of_le_of_lt (Nat.sub_le _ _) t.isLt)).2.2.1) := by
  rw [outsAt0_C m c t h0 h1]; dsimp only
  exact KPieces.oC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

theorem stepC4 (c : Dev nD) (t : Fin cfg0.N) (h0 : ¬t.val % 250 = 0) (h1 : t.val % 250 = 249) :
    (outsAt0 m c t.val t.isLt).2.1 = k0_pay4 (b2 m c t) (k0_pay2 (k0_pay12 (b0 m c t) (b1 m c t) (b2 m c t)) (outsAt0 m c (t.val - 1) (Nat.lt_of_le_of_lt (Nat.sub_le _ _) t.isLt)).2.2.2) := by
  rw [outsAt0_C m c t h0 h1]; dsimp only
  exact KPieces.oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) _ _

/-! ## The accumulators after every point -/

theorem accG_succ (c : Dev nD) (n : ℕ) (a : Fin 10) (d : Fin 128) :
    accG m c n (ix2 a d) + tg m c (n + 1) a d = accG m c (n + 1) (ix2 a d) := by
  show (∑ s ∈ Finset.range (n + 1), tg m c s a d) + tg m c (n + 1) a d = ∑ s ∈ Finset.range (n + 1 + 1), tg m c s a d
  rw [Finset.sum_range_succ (fun s => tg m c s a d) (n + 1)]

theorem accL_succ (c : Dev nD) (n : ℕ) (j : S1x1.Idx) :
    accL m c n j + tl m c (n + 1) = accL m c (n + 1) j := by
  show (∑ s ∈ Finset.range (n + 1), tl m c s) + tl m c (n + 1) = ∑ s ∈ Finset.range (n + 1 + 1), tl m c s
  rw [Finset.sum_range_succ (fun s => tl m c s) (n + 1)]

/-- One accumulating step of the gradient accumulator, as values: what was there plus the point's tile. -/
theorem grad_step (c : Dev nD) (t : Fin cfg0.N) (prev : Vec Ideal S10x128 .f32) (j : S10x128.Idx) :
    k0_pay1 (k0_pay7 (b0 m c t)) (k0_pay11 (b0 m c t) (b1 m c t) (b2 m c t)) prev j = prev j + tg m c t.val (j 0) (j 1) := by
  obtain ⟨a, d, rfl⟩ : ∃ (a : Fin 10) (d : Fin 128), j = ix2 a d := ⟨j 0, j 1, eq_ix2 j⟩
  rw [KPayload.pay1_apply, tile_grad]

theorem loss_step (c : Dev nD) (t : Fin cfg0.N) (prev : Vec Ideal S1x1 .f32) (j : S1x1.Idx) :
    k0_pay2 (k0_pay12 (b0 m c t) (b1 m c t) (b2 m c t)) prev j = prev j + tl m c t.val := by
  rw [KPayload.pay2_apply, tile_loss]

/-- THE INVARIANT: after point `n` the two accumulators hold the tiles `0 … n` summed. -/
theorem inv (c : Dev nD) : ∀ (n : ℕ) (h : n < cfg0.N),
    (outsAt0 m c n h).2.2.1 = accG m c n ∧ (outsAt0 m c n h).2.2.2 = accL m c n
  | 0, h => by
    constructor
    · rw [stepA0 m c ⟨0, h⟩ rfl (by dsimp only; omega)]
      funext j
      rw [grad_step, KPayload.pay5_apply, zero_add]
      show tg m c 0 (j 0) (j 1) = ∑ s ∈ Finset.range 1, tg m c s (j 0) (j 1)
      rw [Finset.sum_range_one]
    · rw [stepA1 m c ⟨0, h⟩ rfl (by dsimp only; omega)]
      funext j
      rw [loss_step, KPayload.pay6_apply, zero_add]
      show tl m c 0 = ∑ s ∈ Finset.range 1, tl m c s
      rw [Finset.sum_range_one]
  | n + 1, h => by
    have hlt : n + 1 < 250 := lt_of_lt_of_eq h hN
    have ih := inv c n (Nat.lt_of_succ_lt h)
    have h0 : ¬(⟨n + 1, h⟩ : Fin cfg0.N).val % 250 = 0 := by dsimp only; omega
    by_cases h1 : (⟨n + 1, h⟩ : Fin cfg0.N).val % 250 = 249
    · constructor
      · rw [stepC0 m c ⟨n + 1, h⟩ h0 h1]
        funext j
        rw [grad_step]
        show (outsAt0 m c n _).2.2.1 j + tg m c (n + 1) (j 0) (j 1) = _
        rw [ih.1]
        obtain ⟨a, d, rfl⟩ : ∃ (a : Fin 10) (d : Fin 128), j = ix2 a d := ⟨j 0, j 1, eq_ix2 j⟩
        exact accG_succ m c n a d
      · rw [stepC1 m c ⟨n + 1, h⟩ h0 h1]
        funext j
        rw [loss_step]
        show (outsAt0 m c n _).2.2.2 j + tl m c (n + 1) = _
        rw [ih.2]
        exact accL_succ m c n j
    · constructor
      · rw [stepB0 m c ⟨n + 1, h⟩ h0 h1]
        funext j
        rw [grad_step]
        show (outsAt0 m c n _).2.2.1 j + tg m c (n + 1) (j 0) (j 1) = _
        rw [ih.1]
        obtain ⟨a, d, rfl⟩ : ∃ (a : Fin 10) (d : Fin 128), j = ix2 a d := ⟨j 0, j 1, eq_ix2 j⟩
        exact accG_succ m c n a d
      · rw [stepB1 m c ⟨n + 1, h⟩ h0 h1]
        funext j
        rw [loss_step]
        show (outsAt0 m c n _).2.2.2 j + tl m c (n + 1) = _
        rw [ih.2]
        exact accL_succ m c n j

/-! ## The last point writes the results -/

/-- The last grid point. -/
abbrev tLast : Fin cfg0.N := ⟨249, by rw [hN]; decide⟩

/-- The sum over the tiles `0 … 249` is the sum over all 250 tiles. -/
theorem accG_last (c : Dev nD) (a : Fin 10) (d : Fin 128) :
    accG m c 249 (ix2 a d)
      = ∑ t : Fin 250, Cert.Svm.tileGrad (Cert.Svm.mat (Xa m c)) (Cert.Svm.vec (ya m c)) (Cert.Svm.mat (wa m c)) t a d := by
  show ∑ s ∈ Finset.range 250, tg m c s a d = _
  rw [← Fin.sum_univ_eq_sum_range (fun s => tg m c s a d) 250]
  refine Finset.sum_congr rfl fun t _ => ?_
  unfold tg
  rw [dif_pos t.isLt]

theorem accL_last (c : Dev nD) (j : S1x1.Idx) :
    accL m c 249 j
      = ∑ t : Fin 250, Cert.Svm.tileLoss (Cert.Svm.mat (Xa m c)) (Cert.Svm.vec (ya m c)) (Cert.Svm.mat (wa m c)) t := by
  show ∑ s ∈ Finset.range 250, tl m c s = _
  rw [← Fin.sum_univ_eq_sum_range (fun s => tl m c s) 250]
  refine Finset.sum_congr rfl fun t _ => ?_
  unfold tl
  rw [dif_pos t.isLt]

/-- What the last point leaves in the gradient's block: the tiled arrangement's gradient. -/
theorem out3_last (c : Dev nD) :
    (outsAt0 m c (tLast).val (tLast).isLt).1 = Cert.Svm.KgradArr (Xa m c) (ya m c) (wa m c) := by
  have h0 : ¬(tLast).val % 250 = 0 := by decide
  have h1 : (tLast).val % 250 = 249 := by decide
  rw [stepC3 m c tLast h0 h1]
  funext j
  obtain ⟨a, d, rfl⟩ : ∃ (a : Fin 10) (d : Fin 128), j = ix2 a d := ⟨j 0, j 1, eq_ix2 j⟩
  rw [KPayload.pay3_apply, grad_step]
  show ((outsAt0 m c 248 _).2.2.1 (ix2 a d) + tg m c 249 a d) * Cert.Svm.invN + Cert.Svm.reg * (b2 m c tLast) (ix2 a d) = _
  rw [(inv m c 248 _).1, accG_succ m c 248 a d, accG_last, blk_w]
  rfl

/-- What the last point leaves in the loss's block: the tiled arrangement's loss. -/
theorem out4_last (c : Dev nD) (j : S1x1.Idx) :
    (outsAt0 m c (tLast).val (tLast).isLt).2.1 j = Cert.Svm.Kloss (Cert.Svm.mat (Xa m c)) (Cert.Svm.vec (ya m c)) (Cert.Svm.mat (wa m c)) := by
  have h0 : ¬(tLast).val % 250 = 0 := by decide
  have h1 : (tLast).val % 250 = 249 := by decide
  rw [stepC4 m c tLast h0 h1, KPayload.pay4_apply, loss_step]
  show ((outsAt0 m c 248 _).2.2.2 j + tl m c 249) * Cert.Svm.invN + Cert.Svm.halfReg * Cert.Svm.wsq (Cert.Svm.mat (b2 m c tLast)) = _
  rw [(inv m c 248 _).2, accL_succ m c 248 j, accL_last, blk_w]
  rfl

/-! ## The result arrays -/

/-- The two results as contents of their arrays: each output's one block is its whole array. -/
abbrev resG (c : Dev nD) : Buf (Elt Ideal) ((c : Thread nD τ).loc main_v1_0) := Cert.Svm.KgradArr (Xa m c) (ya m c) (wa m c)
abbrev resL (c : Dev nD) : Buf (Elt Ideal) ((c : Thread nD τ).loc main_v1_1) :=
  fun _ => Cert.Svm.Kloss (Cert.Svm.mat (Xa m c)) (Cert.Svm.vec (ya m c)) (Cert.Svm.mat (wa m c))

/-- The gradient's one write-back, after the last point, writes the tiled gradient: block (0, 0) read through zero
    offsets is the array. -/
theorem flushed3 (c : Dev nD) (t : Fin cfg0.N) (hf : (cfg0.win 3).flush t = true) :
    (dats m 0 c).flushed 3 t = ((cfg0.win 3).blk t).view.read (Elt Ideal) (resG m c) := by
  have h249 : t.val = 249 := by have := (flush0_3 t).mp hf; have := lt_of_lt_of_eq t.isLt hN; omega
  obtain rfl : t = tLast := Fin.ext h249
  show (cfg0.win 3).cut (grid0.coords tLast) ((dats m 0 c).after 3 tLast) = _
  rw [after0_3, out3_last]
  have hz' : (fun a => win0_3.index tLast a * main_v1_0.ty.shape.size a) = fun _ => 0 := funext fun a => by fin_cases a <;> decide
  exact (Memref.read_access_unit_zero (Elt Ideal) main_v1_0 hz' (fun a => by rw [congrFun hz' a]; simp) (resG m c)).symm

theorem final3 (c : Dev nD) : (dats m 0 c).arrAt 3 cfg0.N = resG m c :=
  (dats m 0 c).arrAt_eq_of_cover 3 (resG m c) (flushed3 m c) fun i =>
    ⟨tLast, (flush0_3 tLast).mpr (by decide), by
      show i ∈ ((View.whole main_v1_0).slice (win0_3.rect tLast)).set
      rw [View.set_slice_whole, Rect.mem_set_unit]
      intro a
      have h0 : (i 0 : Nat) < 10 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 10 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

/-- The loss's one write-back likewise. -/
theorem flushed4 (c : Dev nD) (t : Fin cfg0.N) (hf : (cfg0.win 4).flush t = true) :
    (dats m 0 c).flushed 4 t = ((cfg0.win 4).blk t).view.read (Elt Ideal) (resL m c) := by
  have h249 : t.val = 249 := by have := (flush0_4 t).mp hf; have := lt_of_lt_of_eq t.isLt hN; omega
  obtain rfl : t = tLast := Fin.ext h249
  show (cfg0.win 4).cut (grid0.coords tLast) ((dats m 0 c).after 4 tLast) = _
  rw [after0_4, show (outsAt0 m c (tLast).val (tLast).isLt).2.1 = resL m c from funext fun j => out4_last m c j]
  have hz' : (fun a => win0_4.index tLast a * main_v1_1.ty.shape.size a) = fun _ => 0 := funext fun a => by fin_cases a <;> decide
  exact (Memref.read_access_unit_zero (Elt Ideal) main_v1_1 hz' (fun a => by rw [congrFun hz' a]; simp) (resL m c)).symm

theorem final4 (c : Dev nD) : (dats m 0 c).arrAt 4 cfg0.N = resL m c :=
  (dats m 0 c).arrAt_eq_of_cover 4 (resL m c) (flushed4 m c) fun i =>
    ⟨tLast, (flush0_4 tLast).mpr (by decide), by
      show i ∈ ((View.whole main_v1_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The host's reshape of the [1, 1] loss to a scalar, after the region. -/
theorem tail_loss (c : Dev nD) :
    Pipeline.afterTail₀ cfgs (dats m) 0 (V0 m) [hostOps1] c main_v2 = Cert.Svm.KlossArr (Xa m c) (ya m c) (wa m c) := by
  unfold Pipeline.afterTail₀
  show StableHlo.after hostOps1 _ (Proc.devRef .tc main_v2) = _
  after_results
  funext i
  show shapeCast _ (Pipeline.withArrays spec0 c (V0 m c) (fun w => (dats m 0 c).arrAt w cfg0.N) (Proc.devRef .tc main_v1_1)) shapeCasts_S1x1_S_ i = _
  rw [show Pipeline.withArrays spec0 c (V0 m c) (fun w => (dats m 0 c).arrAt w cfg0.N) (Proc.devRef .tc main_v1_1) = resL m c from
    (Pipeline.withArrays_arr spec0 launch0.win.arr_inj c _ _ 4).trans (final4 m c)]
  rfl

/-! ## The run, read -/

/-- Every weakly fair execution of the kernel's program terminates with the gradient array at the tiled arrangement's
    gradient, the loss at the tiled arrangement's loss, and the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v1_0) = Cert.Svm.KgradArr (Xa m c) (ya m c) (wa m c)
      ∧ r.2.mem ((c.tc : Thread nD τ).loc main_v2) = Cert.Svm.KlossArr (Xa m c) (ya m c) (wa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c),
      ((h c).2 main_v2 (Pipeline.mem_restRefs_of main_v2 (by decide) (by decide))).trans (tail_loss m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.KRun

end
-- ==== Proof.lean ====
/-
  The multiclass hinge loss of a linear classifier and its gradient: a Pallas kernel that streams the 1,000,000 rows
  in 250 tiles of 4,000, accumulating a [10, 128] gradient matrix and a loss number across the grid, against a jnp
  reference that works on the whole arrays (a take-along-axis for the score of each row's own class, a matrix product
  with the transposed mask, a segment sum by label).

  Over the extended reals, for finite data and weights and labels that are class numbers (0 ≤ y < 10), the two agree:
    • the kernel's "score of the own class", the sum over the classes of the one-hot row times the scores, has one
      non-zero term, the score at the label, which is what the reference gathers;
    • margins, masks and counts are then the same functions of the same numbers on both sides;
    • the loss is a sum of the same terms, grouped by tile and row on one side and taken at once on the other;
    • the gradient's row c is, on the kernel's side, the sum over the rows of (one-hot · count − mask) times the row,
      and on the reference's side the sum over the rows labelled c of count times the row minus the sum over all
      rows of mask times the row: equal because every term is a real number, where products distribute over
      differences and finite sums.
  The scale 1/N and the regulariser are the same f32 words on both sides and are never evaluated.
  Outside that label range the claim fails (a negative label wraps in the reference's take-along-axis but matches no
  class in the kernel's one-hot row), which is why the precondition carries the label range.

  The kernel's run is read off its generated frame point by point (KRun), its arithmetic at an index in KPayload,
  what each control case leaves in the accumulators in KPieces; the reference's run is read window by window in
  RefStages and its stages at an index in RefValue; the algebra between the two arrangements is Algebra; the precondition is decoded in PreFacts.
-/
import proofs.«407127_j42941083025647_1_alg».proof.Defs
import proofs.«407127_j42941083025647_1_alg».proof.Proof.Gen.Kernel
import proofs.«407127_j42941083025647_1_alg».proof.Proof.Gen.Kernel.Frame
import proofs.«407127_j42941083025647_1_alg».proof.Proof.Gen.KernelIdeal
import proofs.«407127_j42941083025647_1_alg».proof.Proof.Gen.KernelIdeal.Frame
import proofs.«407127_j42941083025647_1_alg».proof.Proof.Gen.ReferenceIdeal
import proofs.«407127_j42941083025647_1_alg».proof.Proof.Gen.Pre_finite_inputs
import proofs.«407127_j42941083025647_1_alg».proof.Proof.RefRun
import proofs.«407127_j42941083025647_1_alg».proof.Proof.RefRead
import proofs.«407127_j42941083025647_1_alg».proof.Proof.RefStages
import proofs.«407127_j42941083025647_1_alg».proof.Proof.Spec
import proofs.«407127_j42941083025647_1_alg».proof.Proof.Algebra
import proofs.«407127_j42941083025647_1_alg».proof.Proof.PreFacts
import proofs.«407127_j42941083025647_1_alg».proof.Proof.RefValue
import proofs.«407127_j42941083025647_1_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Stages.run (F := Ideal) m ρ)

/-- Both programs end; the kernel's gradient and loss are the tiled arrangement of the arguments, the reference's the
    whole-array arrangement, and the two arrangements agree on finite data with labels in range. -/
theorem algebraic : Cert.algebraic_KernelIdeal_ReferenceIdeal := by
  intro m ρ m' ρ' hpre hagree
  refine ⟨fun c => Cert.Svm.KgradArr (Cert.KernelIdeal.KRun.Xa m c) (Cert.KernelIdeal.KRun.ya m c) (Cert.KernelIdeal.KRun.wa m c),
    fun c => Cert.Svm.KlossArr (Cert.KernelIdeal.KRun.Xa m c) (Cert.KernelIdeal.KRun.ya m c) (Cert.KernelIdeal.KRun.wa m c),
    Cert.KernelIdeal.KRun.kernel_run m ρ, ?_⟩
  refine (θ_run Cert.ReferenceIdeal.defs _ _).mono (fun _ h c => ?_) (Cert.ReferenceIdeal.Stages.run (F := Ideal) m' ρ')
  obtain ⟨hX, hw, hy⟩ := Cert.PreFacts.pre_facts _ _ _ (hpre c)
  refine ⟨(h c).1.trans ?_, (h c).2.1.trans ?_, (h c).2.2⟩
  · rw [(hagree c).1, (hagree c).2.1, (hagree c).2.2, Cert.ReferenceIdeal.RefValue.ref_grad _ _ _ hy]
    funext j
    exact (Cert.Svm.grad_eq _ _ _ hX hw hy (j 0) (j 1)).symm
  · rw [(hagree c).1, (hagree c).2.1, (hagree c).2.2, Cert.ReferenceIdeal.RefValue.ref_loss _ _ _ hy]
    funext j
    exact (Cert.Svm.loss_eq _ _ _ hX hw hy).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
